-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x96x96x3 : Shape := ⟨4, ![2, 96, 96, 3]⟩
abbrev S_ : Shape := ⟨0, ![]⟩

class Facts : Prop where
  bcast_S_S2x96x96x3 : S_.BroadcastsInDim S2x96x96x3 (![] : Fin 0 → Fin S2x96x96x3.rank)
  reducesTo_S2x96x96x3_S_d0_1_2_3 : S2x96x96x3.ReducesTo [0, 1, 2, 3] S_
  h_S_ : 0 < S_.numel

variable [Facts]

def fn {F : FTy → Type} [FloatOps F] (main_arg0 : FVec F S2x96x96x3 .f32) (main_arg1 : FVec F S2x96x96x3 .f32) : IVec S_ 1 :=
  let main_v0 : FVec F S2x96x96x3 .f32 := Host.absf main_arg0
  let main_cst : FVec F S_ .f32 := constant S_ .f32 0x7F800000#32
  let main_v1 : FVec F S2x96x96x3 .f32 := broadcastInDim S2x96x96x3 ![] bcast_S_S2x96x96x3 main_cst
  let main_v2 : IVec S2x96x96x3 1 := cmpf .olt main_v0 main_v1
  let main_c : IVec S_ 1 := constantI S_ 1 1#1
  let main_v3 : IVec S_ 1 := (fun x v => Host.reduce IntOp.andi x v reducesTo_S2x96x96x3_S_d0_1_2_3 h_S_) main_v2 main_c
  let main_v4 : FVec F S2x96x96x3 .f32 := Host.absf main_arg1
  let main_cst_0 : FVec F S_ .f32 := constant S_ .f32 0x7F800000#32
  let main_v5 : FVec F S2x96x96x3 .f32 := broadcastInDim S2x96x96x3 ![] bcast_S_S2x96x96x3 main_cst_0
  let main_v6 : IVec S2x96x96x3 1 := cmpf .olt main_v4 main_v5
  let main_c_1 : IVec S_ 1 := constantI S_ 1 1#1
  let main_v7 : IVec S_ 1 := (fun x v => Host.reduce IntOp.andi x v reducesTo_S2x96x96x3_S_d0_1_2_3 h_S_) main_v6 main_c_1
  let main_v8 : IVec S_ 1 := andi main_v3 main_v7
  main_v8
-- ==== Kernel.lean ====
abbrev S2x96x96x3 : Shape := ⟨4, ![2, 96, 96, 3]⟩
abbrev S2x9216x3 : Shape := ⟨3, ![2, 9216, 3]⟩
abbrev S2x1x1 : Shape := ⟨3, ![2, 1, 1]⟩
abbrev S1x1024x3 : Shape := ⟨3, ![1, 1024, 3]⟩
abbrev S1x1x1 : Shape := ⟨3, ![1, 1, 1]⟩
abbrev S1024x1 : Shape := ⟨2, ![1024, 1]⟩
abbrev S1x9216 : Shape := ⟨2, ![1, 9216]⟩
abbrev S1x1 : Shape := ⟨2, ![1, 1]⟩
abbrev S1024x3 : Shape := ⟨2, ![1024, 3]⟩
abbrev S1024 : Shape := ⟨1, ![1024]⟩
abbrev S1x1024 : Shape := ⟨2, ![1, 1024]⟩
abbrev S3x1024 : Shape := ⟨2, ![3, 1024]⟩
abbrev S1024x1024 : Shape := ⟨2, ![1024, 1024]⟩
abbrev S1 : Shape := ⟨1, ![1]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S2x96x96x3, .f32⟩
  | .hbm, ⟨1, _⟩ => ⟨S2x96x96x3, .f32⟩
  | .hbm, ⟨2, _⟩ => ⟨S2x9216x3, .f32⟩
  | .hbm, ⟨3, _⟩ => ⟨S2x9216x3, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1x1, .f32⟩
  | .local _ .vmem, ⟨5, _⟩ => ⟨S1x1x1, .f32⟩
  | .local _ .vmem, ⟨6, _⟩ => ⟨S1024x1, .f32⟩
  | .local _ .vmem, ⟨7, _⟩ => ⟨S1x9216, .f32⟩
  | .local _ .vmem, ⟨8, _⟩ => ⟨S1x1, .f32⟩
  | _, _ => ⟨S2x96x96x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 9], ![false, false, false]⟩

def k0_mult1 (i : grid0.Coords) : BitVec 32 :=
  let arg2 : BitVec 32 := BitVec.ofNat 32 (i 2).val
  let c1024_i32 : BitVec 32 := 1024#32
  let v36 : BitVec 32 := Scalar.muli arg2 c1024_i32
  v36
def k0_off1 (i : grid0.Coords) : Fin 2 → Nat :=
  let c0_18 : Index := 0#32
  let arg2 : BitVec 32 := BitVec.ofNat 32 (i 2).val
  let c1024_i32 : BitVec 32 := 1024#32
  let v36 : BitVec 32 := Scalar.muli arg2 c1024_i32
  let v37 : BitVec 32 := v36
  let v38 : Index := Scalar.indexCast v37
  ![0, v38.toNat]
def k0_cond4 (i : grid0.Coords) : BitVec 1 :=
  let arg1 : BitVec 32 := BitVec.ofNat 32 (i 1).val
  let c8_i32_21 : BitVec 32 := 8#32
  let v48 : BitVec 1 := Scalar.cmpi .eq arg1 c8_i32_21
  let arg2 : BitVec 32 := BitVec.ofNat 32 (i 2).val
  let c8_i32_22 : BitVec 32 := 8#32
  let v49 : BitVec 1 := Scalar.cmpi .eq arg2 c8_i32_22
  let v50 : BitVec 1 := Scalar.andi v48 v49
  let v51 : BitVec 32 := Scalar.extui v50
  let c0_i32_23 : BitVec 32 := 0#32
  let v52 : BitVec 1 := Scalar.cmpi .ne v51 c0_i32_23
  v52

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  shapeCasts_S2x96x96x3_S2x9216x3 : S2x96x96x3.ShapeCasts S2x9216x3
  inb_S1x9216_S1x9216_0_0 : ∀ a, (![0, 0] : Fin 2 → Nat) a + S1x9216.size a ≤ S1x9216.size a
  h_S1x9216 : 0 < S1x9216.numel
  shapeCasts_S1x9216_S1x9216 : S1x9216.ShapeCasts S1x9216
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  reduces_S1024x3_S1024 : S1024x3.Reduces [1] S1024
  shapeCasts_S1024_S1024x1 : S1024.ShapeCasts S1024x1
  transposes_S1024x1_p1_0_S1x1024 : S1024x1.Transposes [1, 0] S1x1024
  transposes_S1024x3_p1_0_S3x1024 : S1024x3.Transposes [1, 0] S3x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  h_S1x1024 : 0 < S1x1024.numel
  shapeCasts_S1x1024_S1x1024 : S1x1024.ShapeCasts S1x1024
  reduces_S1024x1_S1 : S1024x1.Reduces [0] S1
  shapeCasts_S1_S1x1 : S1.ShapeCasts S1x1
  reduces_S1x9216_S1 : S1x9216.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  dot_S1024x3_S3x1024_S1024x1024_1_0_0_1_n_n_wf : DotDims.WF S1024x3 S3x1024 S1024x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x1024.size a ≤ S1x9216.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S2x9216x3.size a
  hwx0_0 : ∀ i : grid0.Coords, EltTy.bits .f32 = 32 ∨ (Rect.block (s := S2x9216x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S2x9216x3.size a
  hwx0_1 : ∀ i : grid0.Coords, EltTy.bits .f32 = 32 ∨ (Rect.block (s := S2x9216x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_v0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S2x96x96x3 : Shape := ⟨4, ![2, 96, 96, 3]⟩
abbrev S2x9216x3 : Shape := ⟨3, ![2, 9216, 3]⟩
abbrev S_ : Shape := ⟨0, ![]⟩
abbrev S2x9216 : Shape := ⟨2, ![2, 9216]⟩
abbrev S2x9216x9216 : Shape := ⟨3, ![2, 9216, 9216]⟩
abbrev S2x9216x1 : Shape := ⟨3, ![2, 9216, 1]⟩
abbrev S2x1x9216 : Shape := ⟨3, ![2, 1, 9216]⟩

abbrev nBuf : Space → Nat
  | .hbm => 31
  | .vmem => 0
  | .smem => 0
  | _ => 0

abbrev bufTy : (tb : Table) → Fin (tcTables nBuf tb) → BufTy
  | .hbm, ⟨0, _⟩ => ⟨S2x96x96x3, .f32⟩
  | .hbm, ⟨1, _⟩ => ⟨S2x96x96x3, .f32⟩
  | .hbm, ⟨2, _⟩ => ⟨S2x9216x3, .f32⟩
  | .hbm, ⟨3, _⟩ => ⟨S2x9216x3, .f32⟩
  | .hbm, ⟨4, _⟩ => ⟨S2x9216x3, .f32⟩
  | .hbm, ⟨5, _⟩ => ⟨S_, .f32⟩
  | .hbm, ⟨6, _⟩ => ⟨S2x9216, .f32⟩
  | .hbm, ⟨7, _⟩ => ⟨S2x9216x3, .f32⟩
  | .hbm, ⟨8, _⟩ => ⟨S_, .f32⟩
  | .hbm, ⟨9, _⟩ => ⟨S2x9216, .f32⟩
  | .hbm, ⟨10, _⟩ => ⟨S2x9216x9216, .f32⟩
  | .hbm, ⟨11, _⟩ => ⟨S2x9216x1, .f32⟩
  | .hbm, ⟨12, _⟩ => ⟨S2x1x9216, .f32⟩
  | .hbm, ⟨13, _⟩ => ⟨S2x9216x9216, .f32⟩
  | .hbm, ⟨14, _⟩ => ⟨S2x9216x9216, .f32⟩
  | .hbm, ⟨15, _⟩ => ⟨S2x9216x9216, .f32⟩
  | .hbm, ⟨16, _⟩ => ⟨S_, .f32⟩
  | .hbm, ⟨17, _⟩ => ⟨S2x9216x9216, .f32⟩
  | .hbm, ⟨18, _⟩ => ⟨S2x9216x9216, .f32⟩
  | .hbm, ⟨19, _⟩ => ⟨S2x9216x9216, .f32⟩
  | .hbm, ⟨20, _⟩ => ⟨S_, .f32⟩
  | .hbm, ⟨21, _⟩ => ⟨S2x9216, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x9216, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S2x96x96x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  shapeCasts_S2x96x96x3_S2x9216x3 : S2x96x96x3.ShapeCasts S2x9216x3
  reducesTo_S2x9216x3_S2x9216_d2 : S2x9216x3.ReducesTo [2] S2x9216
  h_S_ : 0 < S_.numel
  bcast_S2x9216_S2x9216x1_0_1 : S2x9216.BroadcastsInDim S2x9216x1 (![0, 1] : Fin 2 → Fin S2x9216x1.rank)
  bcast_S2x9216_S2x1x9216_0_2 : S2x9216.BroadcastsInDim S2x1x9216 (![0, 2] : Fin 2 → Fin S2x1x9216.rank)
  bcast_S2x9216x1_S2x9216x9216_0_1_2 : S2x9216x1.BroadcastsInDim S2x9216x9216 (![0, 1, 2] : Fin 3 → Fin S2x9216x9216.rank)
  bcast_S2x1x9216_S2x9216x9216_0_1_2 : S2x1x9216.BroadcastsInDim S2x9216x9216 (![0, 1, 2] : Fin 3 → Fin S2x9216x9216.rank)
  bcast_S_S2x9216x9216 : S_.BroadcastsInDim S2x9216x9216 (![] : Fin 0 → Fin S2x9216x9216.rank)
  reducesTo_S2x9216x9216_S2x9216_d1 : S2x9216x9216.ReducesTo [1] S2x9216
  reducesTo_S2x9216_S_d0_1 : S2x9216.ReducesTo [0, 1] S_
  reducesTo_S2x9216x9216_S2x9216_d2 : S2x9216x9216.ReducesTo [2] S2x9216
  dot_S2x9216x3_S2x9216x3_S2x9216x9216_2_2_1_1_0_0_wf : DotDims.WF S2x9216x3 S2x9216x3 S2x9216x9216 [2] [2] [1] [1] [0] [0]

variable [Facts₀]

def dot_S2x9216x3_S2x9216x3_S2x9216x9216_2_2_1_1_0_0 : DotDims S2x9216x3 S2x9216x3 S2x9216x9216 where
  lhsContracting := [2]
  rhsContracting := [2]
  lhsNonContracting := [1]
  rhsNonContracting := [1]
  lhsBatch := [0]
  rhsBatch := [0]
  wf := dot_S2x9216x3_S2x9216x3_S2x9216x9216_2_2_1_1_0_0_wf

class Facts : Prop extends Facts₀ where

variable [Facts]
-- ==== Proof.Pieces.lean ====
/-
  What each case of the kernel body leaves in its three accumulators and in the output block, as values.

  The body's run at a grid point leaves each buffer as a list of stores; read back, the row accumulator is its old
  contents (or the reset value, at the first column tile) met with the tile's row minima; the column accumulator
  is unchanged outside the tile's 1024 columns and, inside, its old slice met with the tile's column minima; the
  running total is reset at the first tile of a batch, grows by the row accumulator's sum at the last column tile,
  and by the column accumulator's sum at the last tile of a batch, where it is also written to the output block.
-/
import proofs.«125769_j48292612276314_1_alg».proof.Proof.Gen.KernelIdeal.Frame
import Idealize.ShloMosaic.Lib.Pipeline.Value
import Idealize.ShloMosaic.Lib.WritesUnit
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The row accumulator -/

/-- Case A (first column tile): the reset value met with the tile's row minima. -/
theorem rowA (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : cond0_0 i) (hc1 : cond0_1 i) (hc2 : ¬cond0_2 i) (hc3 : ¬cond0_3 i) (x0 : Vec F S1x1024x3 .f32) (x1 : Vec F S1x1024x3 .f32) :
    sout0_A_0 c i arg3 harg3 arg4 harg4 arg5 harg5 arg6 harg6 arg7 harg7 arg8 harg8 hc0 hc1 hc2 hc3 x0 x1 = k0_pay9 x0 x1 k0_pay7 := by
  unfold sout0_A_0
  rw [View.read_writes_eq_canon _ _ _ (scover0_A_0 c i arg3 harg3 arg4 harg4 arg5 harg5 arg6 harg6 arg7 harg7 arg8 harg8 hc0 hc1 hc2 hc3 x0 x1)]
  unfold kernelRun0_A
  dsimp only
  sl_unfold_run_names
  rw [View.canon_cons_unit_zero (S := S1024x1) hz2, View.readCov_unit_zero (S := S1024x1) _ hz2]
  simp only [View.readAt_eq_ld, harg3.read_unread, harg4.read_unread, View.ld_unit_zero (S := S1x1024x3) hz3]

/-- Case D (first column tile): the reset value met with the tile's row minima. -/
theorem rowD (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : cond0_1 i) (hc2 : ¬cond0_2 i) (hc3 : ¬cond0_3 i) (x0 : Vec F S1x1024x3 .f32) (x1 : Vec F S1x1024x3 .f32) (xs1 : Vec F S1x9216 .f32) (xs2 : Vec F S1x1 .f32) :
    sout0_D_0 c i arg3 harg3 arg4 harg4 arg5 harg5 arg6 harg6 arg7 harg7 arg8 harg8 hc0 hc1 hc2 hc3 x0 x1 xs1 xs2 = k0_pay9 x0 x1 k0_pay7 := by
  unfold sout0_D_0
  rw [View.read_writes_eq_canon _ _ _ (scover0_D_0 c i arg3 harg3 arg4 harg4 arg5 harg5 arg6 harg6 arg7 harg7 arg8 harg8 hc0 hc1 hc2 hc3 x0 x1 xs1 xs2)]
  unfold kernelRun0_D
  dsimp only
  sl_unfold_run_names
  rw [View.canon_cons_unit_zero (S := S1024x1) hz2, View.readCov_unit_zero (S := S1024x1) _ hz2]
  simp only [View.readAt_eq_ld, harg3.read_unread, harg4.read_unread, View.ld_unit_zero (S := S1x1024x3) hz3]

/-- Case B (a later column tile): the old contents met with the tile's row minima. -/
theorem rowB (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : ¬cond0_1 i) (hc2 : ¬cond0_2 i) (hc3 : ¬cond0_3 i) (x0 : Vec F S1x1024x3 .f32) (x1 : Vec F S1x1024x3 .f32) (xs0 : Vec F S1024x1 .f32) (xs1 : Vec F S1x9216 .f32) (xs2 : Vec F S1x1 .f32) :
    sout0_B_0 c i arg3 harg3 arg4 harg4 arg5 harg5 arg6 harg6 arg7 harg7 arg8 harg8 hc0 hc1 hc2 hc3 x0 x1 xs0 xs1 xs2 = k0_pay9 x0 x1 xs0 := by
  unfold sout0_B_0
  rw [View.read_writes_eq_canon _ _ _ (scover0_B_0 c i arg3 harg3 arg4 harg4 arg5 harg5 arg6 harg6 arg7 harg7 arg8 harg8 hc0 hc1 hc2 hc3 x0 x1 xs0 xs1 xs2)]
  unfold kernelRun0_B
  dsimp only
  sl_unfold_run_names
  rw [View.canon_unit_zero hz2]
  simp only [View.readAt_eq_ld, harg3.read_unread, harg4.read_unread, harg6.read_unread, View.ld_unit_zero (S := S1x1024x3) hz3, View.ld_unit_zero (S := S1024x1) hz2]

/-- Case C (a later column tile): the old contents met with the tile's row minima. -/
theorem rowC (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : ¬cond0_1 i) (hc2 : cond0_2 i) (hc3 : ¬cond0_3 i) (x0 : Vec F S1x1024x3 .f32) (x1 : Vec F S1x1024x3 .f32) (xs0 : Vec F S1024x1 .f32) (xs1 : Vec F S1x9216 .f32) (xs2 : Vec F S1x1 .f32) :
    sout0_C_0 c i arg3 harg3 arg4 harg4 arg5 harg5 arg6 harg6 arg7 harg7 arg8 harg8 hc0 hc1 hc2 hc3 x0 x1 xs0 xs1 xs2 = k0_pay9 x0 x1 xs0 := by
  unfold sout0_C_0
  rw [View.read_writes_eq_canon _ _ _ (scover0_C_0 c i arg3 harg3 arg4 harg4 arg5 harg5 arg6 harg6 arg7 harg7 arg8 harg8 hc0 hc1 hc2 hc3 x0 x1 xs0 xs1 xs2)]
  unfold kernelRun0_C
  dsimp only
  sl_unfold_run_names
  rw [View.canon_unit_zero hz2]
  simp only [View.readAt_eq_ld, harg3.read_unread, harg4.read_unread, harg6.read_unread, View.ld_unit_zero (S := S1x1024x3) hz3, View.ld_unit_zero (S := S1024x1) hz2]

/-- Case E (a later column tile): the old contents met with the tile's row minima. -/
theorem rowE (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : ¬cond0_1 i) (hc2 : cond0_2 i) (hc3 : cond0_3 i) (x0 : Vec F S1x1024x3 .f32) (x1 : Vec F S1x1024x3 .f32) (xs0 : Vec F S1024x1 .f32) (xs1 : Vec F S1x9216 .f32) (xs2 : Vec F S1x1 .f32) :
    sout0_E_0 c i arg3 harg3 arg4 harg4 arg5 harg5 arg6 harg6 arg7 harg7 arg8 harg8 hc0 hc1 hc2 hc3 x0 x1 xs0 xs1 xs2 = k0_pay9 x0 x1 xs0 := by
  unfold sout0_E_0
  rw [View.read_writes_eq_canon _ _ _ (scover0_E_0 c i arg3 harg3 arg4 harg4 arg5 harg5 arg6 harg6 arg7 harg7 arg8 harg8 hc0 hc1 hc2 hc3 x0 x1 xs0 xs1 xs2)]
  unfold kernelRun0_E
  dsimp only
  sl_unfold_run_names
  rw [View.canon_unit_zero hz2]
  simp only [View.readAt_eq_ld, harg3.read_unread, harg4.read_unread, harg6.read_unread, View.ld_unit_zero (S := S1x1024x3) hz3, View.ld_unit_zero (S := S1024x1) hz2]

/-! ## The column accumulator -/

/-- Case B, at column cc of the tile's slice: the old slice met with the tile's column minima. -/
theorem colB_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : ¬cond0_1 i) (hc2 : ¬cond0_2 i) (hc3 : ¬cond0_3 i) (x0 : Vec F S1x1024x3 .f32) (x1 : Vec F S1x1024x3 .f32) (xs0 : Vec F S1024x1 .f32) (xs1 : Vec F S1x9216 .f32) (xs2 : Vec F S1x1 .f32) (cc : Fin 1024) (y : S1x9216.Idx)
    (hy0 : (y 0).val = 0) (hy1 : (y 1).val = 1024 * (i 2).val + cc.val) :
    sout0_B_1 c i arg3 harg3 arg4 harg4 arg5 harg5 arg6 harg6 arg7 harg7 arg8 harg8 hc0 hc1 hc2 hc3 x0 x1 xs0 xs1 xs2 y
      = k0_pay1 (k0_pay8 x0 x1) (View.ld xs1 (Rect.unit (k0_off1 i) S1x1024.size (k0_off1_inb i))) (ix2 (0 : Fin 1) cc) := by
  unfold sout0_B_1 kernelRun0_B
  dsimp only
  sl_unfold_run_names
  refine (View.read_writes_cons_unit_of_mem arg7.view (harg7.unread xs1) (k0_off1_inb i) _ [] y (ix2 (0 : Fin 1) cc) (k0_off1_eq i) ?_).trans ?_
  · intro a
    match a with
    | ⟨0, _⟩ => exact hy0.trans (Nat.zero_add _).symm
    | ⟨1, _⟩ => exact hy1
  · simp only [View.readAt_eq_ld, harg3.read_unread, harg4.read_unread, harg7.read_unread, View.ld_unit_zero (S := S1x1024x3) hz3]

/-- Case B, at a column outside the tile's slice: untouched. -/
theorem colB_not_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : ¬cond0_1 i) (hc2 : ¬cond0_2 i) (hc3 : ¬cond0_3 i) (x0 : Vec F S1x1024x3 .f32) (x1 : Vec F S1x1024x3 .f32) (xs0 : Vec F S1024x1 .f32) (xs1 : Vec F S1x9216 .f32) (xs2 : Vec F S1x1 .f32) (y : S1x9216.Idx)
    (hy : (y 1).val < 1024 * (i 2).val ∨ 1024 * (i 2).val + 1024 ≤ (y 1).val) :
    sout0_B_1 c i arg3 harg3 arg4 harg4 arg5 harg5 arg6 harg6 arg7 harg7 arg8 harg8 hc0 hc1 hc2 hc3 x0 x1 xs0 xs1 xs2 y = xs1 y := by
  unfold sout0_B_1 kernelRun0_B
  dsimp only
  sl_unfold_run_names
  refine (View.read_writes_cons_unit_of_not_mem arg7.view (harg7.unread xs1) (k0_off1_inb i) _ [] y (k0_off1_eq i) (1 : Fin 2) hy).trans ?_
  rw [View.writes_nil, harg7.read_unread]

/-- Case C, at column cc of the tile's slice: the old slice met with the tile's column minima. -/
theorem colC_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : ¬cond0_1 i) (hc2 : cond0_2 i) (hc3 : ¬cond0_3 i) (x0 : Vec F S1x1024x3 .f32) (x1 : Vec F S1x1024x3 .f32) (xs0 : Vec F S1024x1 .f32) (xs1 : Vec F S1x9216 .f32) (xs2 : Vec F S1x1 .f32) (cc : Fin 1024) (y : S1x9216.Idx)
    (hy0 : (y 0).val = 0) (hy1 : (y 1).val = 1024 * (i 2).val + cc.val) :
    sout0_C_1 c i arg3 harg3 arg4 harg4 arg5 harg5 arg6 harg6 arg7 harg7 arg8 harg8 hc0 hc1 hc2 hc3 x0 x1 xs0 xs1 xs2 y
      = k0_pay1 (k0_pay8 x0 x1) (View.ld xs1 (Rect.unit (k0_off1 i) S1x1024.size (k0_off1_inb i))) (ix2 (0 : Fin 1) cc) := by
  unfold sout0_C_1 kernelRun0_C
  dsimp only
  sl_unfold_run_names
  refine (View.read_writes_cons_unit_of_mem arg7.view (harg7.unread xs1) (k0_off1_inb i) _ [] y (ix2 (0 : Fin 1) cc) (k0_off1_eq i) ?_).trans ?_
  · intro a
    match a with
    | ⟨0, _⟩ => exact hy0.trans (Nat.zero_add _).symm
    | ⟨1, _⟩ => exact hy1
  · simp only [View.readAt_eq_ld, harg3.read_unread, harg4.read_unread, harg7.read_unread, View.ld_unit_zero (S := S1x1024x3) hz3]

/-- Case C, at a column outside the tile's slice: untouched. -/
theorem colC_not_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : ¬cond0_1 i) (hc2 : cond0_2 i) (hc3 : ¬cond0_3 i) (x0 : Vec F S1x1024x3 .f32) (x1 : Vec F S1x1024x3 .f32) (xs0 : Vec F S1024x1 .f32) (xs1 : Vec F S1x9216 .f32) (xs2 : Vec F S1x1 .f32) (y : S1x9216.Idx)
    (hy : (y 1).val < 1024 * (i 2).val ∨ 1024 * (i 2).val + 1024 ≤ (y 1).val) :
    sout0_C_1 c i arg3 harg3 arg4 harg4 arg5 harg5 arg6 harg6 arg7 harg7 arg8 harg8 hc0 hc1 hc2 hc3 x0 x1 xs0 xs1 xs2 y = xs1 y := by
  unfold sout0_C_1 kernelRun0_C
  dsimp only
  sl_unfold_run_names
  refine (View.read_writes_cons_unit_of_not_mem arg7.view (harg7.unread xs1) (k0_off1_inb i) _ [] y (k0_off1_eq i) (1 : Fin 2) hy).trans ?_
  rw [View.writes_nil, harg7.read_unread]

/-- Case D, at column cc of the tile's slice: the old slice met with the tile's column minima. -/
theorem colD_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : cond0_1 i) (hc2 : ¬cond0_2 i) (hc3 : ¬cond0_3 i) (x0 : Vec F S1x1024x3 .f32) (x1 : Vec F S1x1024x3 .f32) (xs1 : Vec F S1x9216 .f32) (xs2 : Vec F S1x1 .f32) (cc : Fin 1024) (y : S1x9216.Idx)
    (hy0 : (y 0).val = 0) (hy1 : (y 1).val = 1024 * (i 2).val + cc.val) :
    sout0_D_1 c i arg3 harg3 arg4 harg4 arg5 harg5 arg6 harg6 arg7 harg7 arg8 harg8 hc0 hc1 hc2 hc3 x0 x1 xs1 xs2 y
      = k0_pay1 (k0_pay8 x0 x1) (View.ld xs1 (Rect.unit (k0_off1 i) S1x1024.size (k0_off1_inb i))) (ix2 (0 : Fin 1) cc) := by
  unfold sout0_D_1 kernelRun0_D
  dsimp only
  sl_unfold_run_names
  refine (View.read_writes_cons_unit_of_mem arg7.view (harg7.unread xs1) (k0_off1_inb i) _ [] y (ix2 (0 : Fin 1) cc) (k0_off1_eq i) ?_).trans ?_
  · intro a
    match a with
    | ⟨0, _⟩ => exact hy0.trans (Nat.zero_add _).symm
    | ⟨1, _⟩ => exact hy1
  · simp only [View.readAt_eq_ld, harg3.read_unread, harg4.read_unread, harg7.read_unread, View.ld_unit_zero (S := S1x1024x3) hz3]

/-- Case D, at a column outside the tile's slice: untouched. -/
theorem colD_not_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : cond0_1 i) (hc2 : ¬cond0_2 i) (hc3 : ¬cond0_3 i) (x0 : Vec F S1x1024x3 .f32) (x1 : Vec F S1x1024x3 .f32) (xs1 : Vec F S1x9216 .f32) (xs2 : Vec F S1x1 .f32) (y : S1x9216.Idx)
    (hy : (y 1).val < 1024 * (i 2).val ∨ 1024 * (i 2).val + 1024 ≤ (y 1).val) :
    sout0_D_1 c i arg3 harg3 arg4 harg4 arg5 harg5 arg6 harg6 arg7 harg7 arg8 harg8 hc0 hc1 hc2 hc3 x0 x1 xs1 xs2 y = xs1 y := by
  unfold sout0_D_1 kernelRun0_D
  dsimp only
  sl_unfold_run_names
  refine (View.read_writes_cons_unit_of_not_mem arg7.view (harg7.unread xs1) (k0_off1_inb i) _ [] y (k0_off1_eq i) (1 : Fin 2) hy).trans ?_
  rw [View.writes_nil, harg7.read_unread]

/-- Case E, at column cc of the tile's slice: the old slice met with the tile's column minima. -/
theorem colE_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : ¬cond0_1 i) (hc2 : cond0_2 i) (hc3 : cond0_3 i) (x0 : Vec F S1x1024x3 .f32) (x1 : Vec F S1x1024x3 .f32) (xs0 : Vec F S1024x1 .f32) (xs1 : Vec F S1x9216 .f32) (xs2 : Vec F S1x1 .f32) (cc : Fin 1024) (y : S1x9216.Idx)
    (hy0 : (y 0).val = 0) (hy1 : (y 1).val = 1024 * (i 2).val + cc.val) :
    sout0_E_1 c i arg3 harg3 arg4 harg4 arg5 harg5 arg6 harg6 arg7 harg7 arg8 harg8 hc0 hc1 hc2 hc3 x0 x1 xs0 xs1 xs2 y
      = k0_pay1 (k0_pay8 x0 x1) (View.ld xs1 (Rect.unit (k0_off1 i) S1x1024.size (k0_off1_inb i))) (ix2 (0 : Fin 1) cc) := by
  unfold sout0_E_1 kernelRun0_E
  dsimp only
  sl_unfold_run_names
  refine (View.read_writes_cons_unit_of_mem arg7.view (harg7.unread xs1) (k0_off1_inb i) _ [] y (ix2 (0 : Fin 1) cc) (k0_off1_eq i) ?_).trans ?_
  · intro a
    match a with
    | ⟨0, _⟩ => exact hy0.trans (Nat.zero_add _).symm
    | ⟨1, _⟩ => exact hy1
  · simp only [View.readAt_eq_ld, harg3.read_unread, harg4.read_unread, harg7.read_unread, View.ld_unit_zero (S := S1x1024x3) hz3]

/-- Case E, at a column outside the tile's slice: untouched. -/
theorem colE_not_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : ¬cond0_1 i) (hc2 : cond0_2 i) (hc3 : cond0_3 i) (x0 : Vec F S1x1024x3 .f32) (x1 : Vec F S1x1024x3 .f32) (xs0 : Vec F S1024x1 .f32) (xs1 : Vec F S1x9216 .f32) (xs2 : Vec F S1x1 .f32) (y : S1x9216.Idx)
    (hy : (y 1).val < 1024 * (i 2).val ∨ 1024 * (i 2).val + 1024 ≤ (y 1).val) :
    sout0_E_1 c i arg3 harg3 arg4 harg4 arg5 harg5 arg6 harg6 arg7 harg7 arg8 harg8 hc0 hc1 hc2 hc3 x0 x1 xs0 xs1 xs2 y = xs1 y := by
  unfold sout0_E_1 kernelRun0_E
  dsimp only
  sl_unfold_run_names
  refine (View.read_writes_cons_unit_of_not_mem arg7.view (harg7.unread xs1) (k0_off1_inb i) _ [] y (k0_off1_eq i) (1 : Fin 2) hy).trans ?_
  rw [View.writes_nil, harg7.read_unread]

/-- The reset column accumulator read back whole. -/
theorem reset_read (v : View sig .tc .vmem S1x9216 .f32) (f : v.ty.Contents (Elt F)) :
    v.read (Elt F) (v.writes (Elt F) f [⟨Rect.unit ![0, 0] S1x9216.size inb_S1x9216_S1x9216_0_0, k0_pay5⟩]) = k0_pay5 := by
  funext y
  refine View.read_writes_cons_unit_of_mem v f inb_S1x9216_S1x9216_0_0 _ [] y y rfl fun a => ?_
  match a with
  | ⟨0, _⟩ => exact (Nat.zero_add _).symm
  | ⟨1, _⟩ => exact (Nat.zero_add _).symm

/-- Case A (first tile of a batch), at column cc of the tile's slice: the reset value met with the tile's column minima. -/
theorem colA_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : cond0_0 i) (hc1 : cond0_1 i) (hc2 : ¬cond0_2 i) (hc3 : ¬cond0_3 i) (x0 : Vec F S1x1024x3 .f32) (x1 : Vec F S1x1024x3 .f32) (cc : Fin 1024) (y : S1x9216.Idx)
    (hy0 : (y 0).val = 0) (hy1 : (y 1).val = 1024 * (i 2).val + cc.val) :
    sout0_A_1 c i arg3 harg3 arg4 harg4 arg5 harg5 arg6 harg6 arg7 harg7 arg8 harg8 hc0 hc1 hc2 hc3 x0 x1 y
      = k0_pay1 (k0_pay8 x0 x1) (View.ld (k0_pay5 (F := F)) (Rect.unit (s := S1x9216) (k0_off1 i) S1x1024.size (k0_off1_inb i))) (ix2 (0 : Fin 1) cc) := by
  unfold sout0_A_1 kernelRun0_A
  dsimp only
  sl_unfold_run_names
  refine (View.read_writes_cons_unit_of_mem VS0_1 VS0_1.junk (k0_off1_inb i) _ _ y (ix2 (0 : Fin 1) cc) (k0_off1_eq i) ?_).trans ?_
  · intro a
    match a with
    | ⟨0, _⟩ => exact hy0.trans (Nat.zero_add _).symm
    | ⟨1, _⟩ => exact hy1
  · simp only [View.readAt_eq_ld, harg3.read_unread, harg4.read_unread, View.ld_unit_zero (S := S1x1024x3) hz3]
    exact congrArg (fun o : Vec F S1x9216 .f32 => k0_pay1 (k0_pay8 x0 x1)
      (View.ld o (Rect.unit (s := S1x9216) (k0_off1 i) S1x1024.size (k0_off1_inb i))) (ix2 (0 : Fin 1) cc))
      (reset_read arg7.view arg7.view.junk)

/-- Case A, at a column outside the tile's slice: the reset value. -/
theorem colA_not_mem (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : cond0_0 i) (hc1 : cond0_1 i) (hc2 : ¬cond0_2 i) (hc3 : ¬cond0_3 i) (x0 : Vec F S1x1024x3 .f32) (x1 : Vec F S1x1024x3 .f32) (y : S1x9216.Idx)
    (hy : (y 1).val < 1024 * (i 2).val ∨ 1024 * (i 2).val + 1024 ≤ (y 1).val) :
    sout0_A_1 c i arg3 harg3 arg4 harg4 arg5 harg5 arg6 harg6 arg7 harg7 arg8 harg8 hc0 hc1 hc2 hc3 x0 x1 y = k0_pay5 y := by
  unfold sout0_A_1 kernelRun0_A
  dsimp only
  sl_unfold_run_names
  refine (View.read_writes_cons_unit_of_not_mem VS0_1 VS0_1.junk (k0_off1_inb i) _ _ y (k0_off1_eq i) (1 : Fin 2) hy).trans ?_
  exact congrFun (reset_read VS0_1 VS0_1.junk) y

/-! ## The running total and the output block -/

/-- A load of a whole buffer after two whole stores reads the later store's value. -/
theorem readCov_two_unit_zero {sig' : RefSig} {κ : Kind} {sp : Space} {S : Shape} {e : EltTy}
    (v : View sig' κ sp S e) {off : Fin S.rank → Nat} (h : off = fun _ => 0)
    (inb : ∀ a, off a + S.size a ≤ S.size a) (w w' : S.Idx → Elt F e) :
    v.readCov [(⟨Rect.unit off S.size inb, w⟩ : View.Piece (Elt F) S e), ⟨Rect.unit off S.size inb, w'⟩]
      (Rect.unit off S.size inb).toLoadRect = w := by
  rw [View.readCov_eq_canon_ld _ _ _ (fun y => ⟨_, List.mem_cons_self .., View.mem_set_unit_zero h inb y⟩),
    View.canon_cons_unit_zero h, View.ld_unit_zero h]

/-- Case A: reset. -/
theorem totA (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : cond0_0 i) (hc1 : cond0_1 i) (hc2 : ¬cond0_2 i) (hc3 : ¬cond0_3 i) (x0 : Vec F S1x1024x3 .f32) (x1 : Vec F S1x1024x3 .f32) : sout0_A_2 c i arg3 harg3 arg4 harg4 arg5 harg5 arg6 harg6 arg7 harg7 arg8 harg8 hc0 hc1 hc2 hc3 x0 x1 = k0_pay6 := by
  unfold sout0_A_2
  rw [View.read_writes_eq_canon _ _ _ (scover0_A_2 c i arg3 harg3 arg4 harg4 arg5 harg5 arg6 harg6 arg7 harg7 arg8 harg8 hc0 hc1 hc2 hc3 x0 x1)]
  unfold kernelRun0_A
  dsimp only
  sl_unfold_run_names
  rw [View.canon_unit_zero hz2]

/-- Cases B and D store nothing into it. -/
theorem totB (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : ¬cond0_1 i) (hc2 : ¬cond0_2 i) (hc3 : ¬cond0_3 i) (x0 : Vec F S1x1024x3 .f32) (x1 : Vec F S1x1024x3 .f32) (xs0 : Vec F S1024x1 .f32) (xs1 : Vec F S1x9216 .f32) (xs2 : Vec F S1x1 .f32) : sout0_B_2 c i arg3 harg3 arg4 harg4 arg5 harg5 arg6 harg6 arg7 harg7 arg8 harg8 hc0 hc1 hc2 hc3 x0 x1 xs0 xs1 xs2 = xs2 := rfl
theorem totD (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : cond0_1 i) (hc2 : ¬cond0_2 i) (hc3 : ¬cond0_3 i) (x0 : Vec F S1x1024x3 .f32) (x1 : Vec F S1x1024x3 .f32) (xs1 : Vec F S1x9216 .f32) (xs2 : Vec F S1x1 .f32) : sout0_D_2 c i arg3 harg3 arg4 harg4 arg5 harg5 arg6 harg6 arg7 harg7 arg8 harg8 hc0 hc1 hc2 hc3 x0 x1 xs1 xs2 = xs2 := rfl

/-- Case C (last column tile): the old total plus the sum of the finished row accumulator. -/
theorem totC (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : ¬cond0_1 i) (hc2 : cond0_2 i) (hc3 : ¬cond0_3 i) (x0 : Vec F S1x1024x3 .f32) (x1 : Vec F S1x1024x3 .f32) (xs0 : Vec F S1024x1 .f32) (xs1 : Vec F S1x9216 .f32) (xs2 : Vec F S1x1 .f32) : sout0_C_2 c i arg3 harg3 arg4 harg4 arg5 harg5 arg6 harg6 arg7 harg7 arg8 harg8 hc0 hc1 hc2 hc3 x0 x1 xs0 xs1 xs2 = k0_pay2 xs2 (k0_pay9 x0 x1 xs0) := by
  unfold sout0_C_2
  rw [View.read_writes_eq_canon _ _ _ (scover0_C_2 c i arg3 harg3 arg4 harg4 arg5 harg5 arg6 harg6 arg7 harg7 arg8 harg8 hc0 hc1 hc2 hc3 x0 x1 xs0 xs1 xs2)]
  unfold kernelRun0_C
  dsimp only
  sl_unfold_run_names
  rw [View.canon_unit_zero hz2]
  simp only [View.readAt_eq_ld, harg3.read_unread, harg4.read_unread, harg6.read_unread, harg8.read_unread, View.ld_unit_zero (S := S1x1024x3) hz3, View.ld_unit_zero (S := S1024x1) hz2, View.ld_unit_zero (S := S1x1) hz2, View.readCov_unit_zero (S := S1024x1) _ hz2]

/-- Case E (last tile of a batch): that, plus the sum of the finished column accumulator. -/
theorem totE (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : ¬cond0_1 i) (hc2 : cond0_2 i) (hc3 : cond0_3 i) (x0 : Vec F S1x1024x3 .f32) (x1 : Vec F S1x1024x3 .f32) (xs0 : Vec F S1024x1 .f32) (xs1 : Vec F S1x9216 .f32) (xs2 : Vec F S1x1 .f32) :
    sout0_E_2 c i arg3 harg3 arg4 harg4 arg5 harg5 arg6 harg6 arg7 harg7 arg8 harg8 hc0 hc1 hc2 hc3 x0 x1 xs0 xs1 xs2 = k0_pay3 (k0_pay2 xs2 (k0_pay9 x0 x1 xs0)) (sout0_E_1 c i arg3 harg3 arg4 harg4 arg5 harg5 arg6 harg6 arg7 harg7 arg8 harg8 hc0 hc1 hc2 hc3 x0 x1 xs0 xs1 xs2) := by
  unfold sout0_E_2
  rw [View.read_writes_eq_canon _ _ _ (scover0_E_2 c i arg3 harg3 arg4 harg4 arg5 harg5 arg6 harg6 arg7 harg7 arg8 harg8 hc0 hc1 hc2 hc3 x0 x1 xs0 xs1 xs2)]
  unfold sout0_E_1 kernelRun0_E
  dsimp only
  sl_unfold_run_names
  rw [View.canon_cons_unit_zero (S := S1x1) hz2]
  simp only [View.readAt_eq_ld, harg3.read_unread, harg4.read_unread, harg6.read_unread, harg8.read_unread, View.ld_unit_zero (S := S1x1024x3) hz3, View.ld_unit_zero (S := S1024x1) hz2, View.ld_unit_zero (S := S1x1) hz2, View.ld_unit_zero (S := S1x9216) hz2, View.readCov_unit_zero (S := S1024x1) _ hz2, View.readCov_unit_zero (S := S1x1) _ hz2]

/-- Case E: the output block is the final total. -/
theorem outE (c : Dev nD) (i : grid0.Coords) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1024x1 .f32) (harg6 : arg6.IsWhole) (arg7 : Memref sig .tc .vmem S1x9216 .f32) (harg7 : arg7.IsWhole) (arg8 : Memref sig .tc .vmem S1x1 .f32) (harg8 : arg8.IsWhole) (hc0 : ¬cond0_0 i) (hc1 : ¬cond0_1 i) (hc2 : cond0_2 i) (hc3 : cond0_3 i) (x0 : Vec F S1x1024x3 .f32) (x1 : Vec F S1x1024x3 .f32) (xs0 : Vec F S1024x1 .f32) (xs1 : Vec F S1x9216 .f32) (xs2 : Vec F S1x1 .f32) :
    out0_E_2 c i arg3 harg3 arg4 harg4 arg5 harg5 arg6 harg6 arg7 harg7 arg8 harg8 hc0 hc1 hc2 hc3 x0 x1 xs0 xs1 xs2 = k0_pay4 (sout0_E_2 c i arg3 harg3 arg4 harg4 arg5 harg5 arg6 harg6 arg7 harg7 arg8 harg8 hc0 hc1 hc2 hc3 x0 x1 xs0 xs1 xs2) := by
  rw [totE]
  unfold out0_E_2
  rw [View.read_writes_eq_canon _ _ _ (cover0_E_2 c i arg3 harg3 arg4 harg4 arg5 harg5 arg6 harg6 arg7 harg7 arg8 harg8 hc0 hc1 hc2 hc3 x0 x1 xs0 xs1 xs2)]
  unfold sout0_E_1 kernelRun0_E
  dsimp only
  sl_unfold_run_names
  rw [View.canon_unit_zero hz3]
  simp only [View.readAt_eq_ld, harg3.read_unread, harg4.read_unread, harg6.read_unread, harg8.read_unread, View.ld_unit_zero (S := S1x1024x3) hz3, View.ld_unit_zero (S := S1024x1) hz2, View.ld_unit_zero (S := S1x1) hz2, View.ld_unit_zero (S := S1x9216) hz2, View.readCov_unit_zero (S := S1024x1) _ hz2, View.readCov_unit_zero (S := S1x1) _ hz2]
  rw [readCov_two_unit_zero (S := S1x1) _ hz2]

end Cert.KernelIdeal.Pieces

end
-- ==== Proof.Blocks.lean ====
/-
  Where the kernel's blocks sit in the arrays.

  Grid point t of the 2 x 9 x 9 grid is batch t / 81, row tile t / 9 mod 9, column tile t mod 9. The block of the
  first cloud staged at t holds the 1024 points of its row tile, the block of the second the 1024 points of its
  column tile, and the output block is entry (batch, 0, 0). The two clouds are the arguments reshaped from
  batch x 96 x 96 x 3 to batch x 9216 x 3 before the kernel starts.
-/
import proofs.«125769_j48292612276314_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The grid has 162 points. -/
theorem N_eq : cfg0.N = 162 := N_0
theorem t_lt (t : Fin cfg0.N) : t.val < 162 := lt_of_lt_of_eq t.isLt N_0

/-- The windows' block indices at a point, in closed form. -/
theorem index0 : ∀ t : Fin cfg0.N, win0_0.index t 0 = t.val / 81 ∧ win0_0.index t 1 = t.val / 9 % 9 ∧ win0_0.index t 2 = 0 :=
  (by decide +kernel : ∀ t : Fin grid0.N, win0_0.index t 0 = t.val / 81 ∧ win0_0.index t 1 = t.val / 9 % 9 ∧ win0_0.index t 2 = 0)
theorem index1 : ∀ t : Fin cfg0.N, win0_1.index t 0 = t.val / 81 ∧ win0_1.index t 1 = t.val % 9 ∧ win0_1.index t 2 = 0 :=
  (by decide +kernel : ∀ t : Fin grid0.N, win0_1.index t 0 = t.val / 81 ∧ win0_1.index t 1 = t.val % 9 ∧ win0_1.index t 2 = 0)
theorem index2 : ∀ t : Fin cfg0.N, win0_2.index t 0 = t.val / 81 ∧ win0_2.index t 1 = 0 ∧ win0_2.index t 2 = 0 :=
  (by decide +kernel : ∀ t : Fin grid0.N, win0_2.index t 0 = t.val / 81 ∧ win0_2.index t 1 = 0 ∧ win0_2.index t 2 = 0)
/-- The column-tile coordinate of a point. -/
theorem coord2 : ∀ t : Fin cfg0.N, (grid0.coords t 2).val = t.val % 9 :=
  (by decide +kernel : ∀ t : Fin grid0.N, (grid0.coords t 2).val = t.val % 9)

/-- The first cloud as the kernel finds it: the first argument reshaped. -/
theorem cloudX_eq (c : Dev nD) :
    (V m c main_v0 : S2x9216x3.Idx → Elt F .f32)
      = shapeCast S2x9216x3 (m ((c : Thread nD τ).loc main_arg0)) shapeCasts_S2x96x96x3_S2x9216x3 := by
  show StableHlo.after hostOps0 (fun b => m (c, b)) (Proc.devRef .tc main_v0) = _
  after_results
  rfl

/-- The second cloud: the second argument reshaped. -/
theorem cloudY_eq (c : Dev nD) :
    (V m c main_v1 : S2x9216x3.Idx → Elt F .f32)
      = shapeCast S2x9216x3 (m ((c : Thread nD τ).loc main_arg1)) shapeCasts_S2x96x96x3_S2x9216x3 := by
  show StableHlo.after hostOps0 (fun b => m (c, b)) (Proc.devRef .tc main_v1) = _
  after_results
  rfl

/-- Row r, coordinate k of the first cloud's block at point t is point 1024 * (row tile) + r of the batch. -/
theorem xblk_apply (c : Dev nD) (t : Fin cfg0.N) (u : Fin 1) (r : Fin 1024) (k : Fin 3) :
    (iblk m c 0 t : Vec F S1x1024x3 .f32) (ix3 u r k)
      = (V m c main_v0 : S2x9216x3.Idx → Elt F .f32)
          (ix3 (⟨t.val / 81, by have := t_lt t; omega⟩ : Fin 2)
            (⟨1024 * (t.val / 9 % 9) + r.val, by have := r.isLt; omega⟩ : Fin 9216) k) := by
  unfold iblk
  rw [View.read_apply]
  show V m c main_v0 _ = V m c main_v0 _
  congr 1
  funext a
  apply Fin.ext
  have hu : u.val = 0 := by omega
  match a with
  | ⟨0, _⟩ => show win0_0.index t 0 * 1 + 1 * u.val = t.val / 81; rw [(index0 t).1]; omega
  | ⟨1, _⟩ => show win0_0.index t 1 * 1024 + 1 * r.val = 1024 * (t.val / 9 % 9) + r.val; rw [(index0 t).2.1]; omega
  | ⟨2, _⟩ => show win0_0.index t 2 * 3 + 1 * k.val = k.val; rw [(index0 t).2.2]; omega

/-- Row cc, coordinate k of the second cloud's block at point t is point 1024 * (column tile) + cc of the batch. -/
theorem yblk_apply (c : Dev nD) (t : Fin cfg0.N) (u : Fin 1) (cc : Fin 1024) (k : Fin 3) :
    (iblk m c 1 t : Vec F S1x1024x3 .f32) (ix3 u cc k)
      = (V m c main_v1 : S2x9216x3.Idx → Elt F .f32)
          (ix3 (⟨t.val / 81, by have := t_lt t; omega⟩ : Fin 2)
            (⟨1024 * (t.val % 9) + cc.val, by have := cc.isLt; omega⟩ : Fin 9216) k) := by
  unfold iblk
  rw [View.read_apply]
  show V m c main_v1 _ = V m c main_v1 _
  congr 1
  funext a
  apply Fin.ext
  have hu : u.val = 0 := by omega
  match a with
  | ⟨0, _⟩ => show win0_1.index t 0 * 1 + 1 * u.val = t.val / 81; rw [(index1 t).1]; omega
  | ⟨1, _⟩ => show win0_1.index t 1 * 1024 + 1 * cc.val = 1024 * (t.val % 9) + cc.val; rw [(index1 t).2.1]; omega
  | ⟨2, _⟩ => show win0_1.index t 2 * 3 + 1 * k.val = k.val; rw [(index1 t).2.2]; omega

end Cert.KernelIdeal.Blocks

end
-- ==== Proof.LibBlockPrefixSum.lean ====
/-
  A sum over `Fin N` taken block by block, in any commutative monoid.

  For a block width `B`, `blockPrefix B f n` is the sum of `f` over the first `n` blocks, that is over the
  positions below `B * n`. It starts at zero, grows by one block at a time,

      blockPrefix B f (n + 1) = blockPrefix B f n + ∑ j : Fin B, f (B * n + j),

  and once the blocks exhaust the range (`B * n = N`) it is the whole sum `∑ k : Fin N, f k`. Only the
  commutativity and associativity of the addition are used, so the statements hold on the extended reals,
  infinite entries included.

  How it is obtained: `f` is continued by zero beyond `N`, which makes the prefix a sum over an initial
  segment of the naturals; an initial segment of length `B * n + B` splits into the one of length `B * n`
  and a shifted segment of length `B`, and on positions below `N` the continuation is `f` itself.
-/
import Mathlib.Algebra.BigOperators.Fin

namespace BlockPrefixSum

open Finset
open scoped BigOperators

variable {M : Type*} [AddCommMonoid M] {N : ℕ}

/-- `f` continued by zero beyond `N`. -/
def continued (f : Fin N → M) (k : ℕ) : M := if h : k < N then f ⟨k, h⟩ else 0

/-- On a position below `N` the continuation is `f`. -/
theorem continued_of_lt (f : Fin N → M) (k : ℕ) (h : k < N) : continued f k = f ⟨k, h⟩ := dif_pos h

/-- The sum of `f` over its first `n` blocks of width `B`. -/
def blockPrefix (B : ℕ) (f : Fin N → M) (n : ℕ) : M := ∑ k ∈ range (B * n), continued f k

/-- No block: the empty sum. -/
theorem blockPrefix_zero (B : ℕ) (f : Fin N → M) : blockPrefix B f 0 = 0 := by
  unfold blockPrefix
  rw [Nat.mul_zero, range_zero, sum_empty]

/-- One more block: the prefix grows by that block's sum. -/
theorem blockPrefix_succ (B : ℕ) (f : Fin N → M) (n : ℕ) (h : B * n + B ≤ N) :
    blockPrefix B f (n + 1)
      = blockPrefix B f n + ∑ j : Fin B, f ⟨B * n + j.val, lt_of_lt_of_le (Nat.add_lt_add_left j.isLt _) h⟩ := by
  unfold blockPrefix
  rw [Nat.mul_succ, sum_range_add]
  congr 1
  rw [Finset.sum_range]
  exact Finset.sum_congr rfl fun j _ => continued_of_lt f _ _

/-- All the blocks: the whole sum. -/
theorem blockPrefix_all (B : ℕ) (f : Fin N → M) (n : ℕ) (h : B * n = N) :
    blockPrefix B f n = ∑ k : Fin N, f k := by
  unfold blockPrefix
  rw [h, Finset.sum_range]
  exact Finset.sum_congr rfl fun k _ => continued_of_lt f _ k.isLt

end BlockPrefixSum
-- ==== Proof.ChamferSpec.lean ====
/-
  The mathematics of a two-sided nearest-neighbour sum, free of any program.

  For one batch, P n m is an extended-real matrix indexed by 9216 rows and 9216 columns. The quantity of
  interest is the sum over the rows of each row's minimum plus the sum over the columns of each column's
  minimum. A tiled sweep visits the 9 x 9 tiles of 1024 x 1024 entries row tile by row tile, the column tile
  innermost, and carries three accumulators: the running minima of the current row tile over the column tiles
  seen so far, the running minima of every column over the row tiles seen so far, and the running total of the
  finished row tiles. This module states what each accumulator holds before and after every tile and proves the
  one-tile steps and the final values.

  Minima are folds of min from a starting value ι which is never inspected: every identity used is the
  universal property of a fold of min (a bound is below the fold iff it is below the start and below every
  entry), so nothing depends on ι being the top element. Sums only use that addition on the extended reals is
  commutative and associative, so infinite entries are harmless.
-/
import Idealize.ShloMosaic.PureOps.Ideal.Laws
import proofs.«125769_j48292612276314_1_alg».proof.Proof.LibBlockPrefixSum

noncomputable section

namespace Cert.Chamfer

open scoped BigOperators

variable (ι : EReal) (P : Fin 9216 → Fin 9216 → EReal)

/-- The fold of min from ι over row n's entries in the columns below J. -/
def rowInf (n : Fin 9216) (J : ℕ) : EReal :=
  (Finset.univ.filter fun m : Fin 9216 => m.val < J).fold min ι (fun m => P n m)

/-- The same along a column: the fold over column m's entries in the rows below I. -/
def colInf (m : Fin 9216) (I : ℕ) : EReal := rowInf ι (fun a b => P b a) m I

/-- A bound is below the partial row minimum iff it is below the start and below every entry left of J. -/
theorem le_rowInf_iff (c : EReal) (n : Fin 9216) (J : ℕ) :
    c ≤ rowInf ι P n J ↔ c ≤ ι ∧ ∀ m : Fin 9216, m.val < J → c ≤ P n m := by
  unfold rowInf
  rw [Finset.le_fold_min]
  simp only [Finset.mem_filter, Finset.mem_univ, true_and]

/-- Over no columns the fold is its start. -/
theorem rowInf_zero (n : Fin 9216) : rowInf ι P n 0 = ι := by
  refine eq_of_forall_le_iff fun c => ?_
  rw [le_rowInf_iff]
  exact ⟨fun h => h.1, fun h => ⟨h, fun m hm => absurd hm (Nat.not_lt_zero _)⟩⟩

/-- One more tile of 1024 columns: the partial minimum met with the tile's own fold. -/
theorem rowInf_step (n : Fin 9216) (J : ℕ) (h : J + 1024 ≤ 9216) :
    min (rowInf ι P n J)
        ((Finset.univ : Finset (Fin 1024)).fold min ι (fun c => P n ⟨J + c.val, by have := c.isLt; omega⟩))
      = rowInf ι P n (J + 1024) := by
  refine eq_of_forall_le_iff fun c => ?_
  rw [le_min_iff, le_rowInf_iff, le_rowInf_iff, Finset.le_fold_min]
  constructor
  · rintro ⟨⟨h0, h1⟩, -, h2⟩
    refine ⟨h0, fun m hm => ?_⟩
    by_cases hlt : m.val < J
    · exact h1 m hlt
    · have := h2 ⟨m.val - J, by omega⟩ (Finset.mem_univ _)
      have e : (⟨J + (m.val - J), by omega⟩ : Fin 9216) = m := Fin.ext (by show J + (m.val - J) = m.val; omega)
      rw [e] at this
      exact this
  · rintro ⟨h0, h1⟩
    exact ⟨⟨h0, fun m hm => h1 m (by omega)⟩, h0,
      fun cc _ => h1 _ (by show J + cc.val < J + 1024; have := cc.isLt; omega)⟩

/-- Over all the columns: the fold over the whole row. -/
theorem rowInf_all (n : Fin 9216) :
    (Finset.univ : Finset (Fin 9216)).fold min ι (fun m => P n m) = rowInf ι P n 9216 := by
  refine eq_of_forall_le_iff fun c => ?_
  rw [le_rowInf_iff, Finset.le_fold_min]
  exact ⟨fun h => ⟨h.1, fun m _ => h.2 m (Finset.mem_univ _)⟩, fun h => ⟨h.1, fun m _ => h.2 m m.isLt⟩⟩

/-- The column forms of the three facts. -/
theorem colInf_zero (m : Fin 9216) : colInf ι P m 0 = ι := rowInf_zero ι (fun a b => P b a) m

theorem colInf_step (m : Fin 9216) (I : ℕ) (h : I + 1024 ≤ 9216) :
    min (colInf ι P m I)
        ((Finset.univ : Finset (Fin 1024)).fold min ι (fun r => P ⟨I + r.val, by have := r.isLt; omega⟩ m))
      = colInf ι P m (I + 1024) := rowInf_step ι (fun a b => P b a) m I h

theorem colInf_all (m : Fin 9216) :
    (Finset.univ : Finset (Fin 9216)).fold min ι (fun n => P n m) = colInf ι P m 9216 := rowInf_all ι (fun a b => P b a) m

/-! ## The running total of the finished row tiles -/

/-- The sum of the complete row minima over the first I row tiles. -/
def rowTotal (I : ℕ) : EReal := BlockPrefixSum.blockPrefix 1024 (fun n : Fin 9216 => rowInf ι P n 9216) I

/-- The sum of the complete column minima. -/
def colTotal : EReal := ∑ m : Fin 9216, colInf ι P m 9216

theorem rowTotal_zero : rowTotal ι P 0 = 0 := BlockPrefixSum.blockPrefix_zero _ _

theorem rowTotal_succ (i : ℕ) (h : 1024 * i + 1024 ≤ 9216) :
    rowTotal ι P (i + 1)
      = rowTotal ι P i + ∑ r : Fin 1024, rowInf ι P ⟨1024 * i + r.val, by have := r.isLt; omega⟩ 9216 :=
  BlockPrefixSum.blockPrefix_succ 1024 _ i h

theorem rowTotal_all : rowTotal ι P 9 = ∑ n : Fin 9216, rowInf ι P n 9216 :=
  BlockPrefixSum.blockPrefix_all 1024 _ 9 rfl

/-! ## What the accumulators hold around tile (i, j) -/

/-- The row accumulator before tile (i, j), at row r of row tile i: the minimum over the first j column tiles. -/
def rowBefore (i j : ℕ) (hi : i < 9) (r : Fin 1024) : EReal :=
  rowInf ι P ⟨1024 * i + r.val, by have := r.isLt; omega⟩ (1024 * j)

/-- The column accumulator before tile (i, j), at column c: the columns of the tiles already visited in this row
    tile have seen i + 1 row tiles, the others i. -/
def colBefore (i j : ℕ) (c : Fin 9216) : EReal :=
  colInf ι P c (if c.val < 1024 * j then 1024 * (i + 1) else 1024 * i)

/-- Tile (i, j)'s own row minimum at row r and column minimum at column cc, as folds over the tile. -/
def tileRowMin (i j : ℕ) (hi : i < 9) (hj : j < 9) (r : Fin 1024) : EReal :=
  (Finset.univ : Finset (Fin 1024)).fold min ι
    (fun cc => P ⟨1024 * i + r.val, by have := r.isLt; omega⟩ ⟨1024 * j + cc.val, by have := cc.isLt; omega⟩)

def tileColMin (i j : ℕ) (hi : i < 9) (hj : j < 9) (cc : Fin 1024) : EReal :=
  (Finset.univ : Finset (Fin 1024)).fold min ι
    (fun r => P ⟨1024 * i + r.val, by have := r.isLt; omega⟩ ⟨1024 * j + cc.val, by have := cc.isLt; omega⟩)

/-- Before the first column tile the row accumulator is at its start. -/
theorem rowBefore_zero (i : ℕ) (hi : i < 9) (r : Fin 1024) : rowBefore ι P i 0 hi r = ι := by
  unfold rowBefore; rw [Nat.mul_zero]; exact rowInf_zero ι P _

/-- One tile further along the row tile. -/
theorem rowBefore_succ (i j : ℕ) (hi : i < 9) (hj : j < 9) (r : Fin 1024) :
    min (rowBefore ι P i j hi r) (tileRowMin ι P i j hi hj r) = rowBefore ι P i (j + 1) hi r := by
  unfold rowBefore tileRowMin
  rw [Nat.mul_succ]
  exact rowInf_step ι P _ (1024 * j) (by omega)

/-- After the last column tile the row accumulator holds the complete row minima. -/
theorem rowBefore_nine (i : ℕ) (hi : i < 9) (r : Fin 1024) :
    rowBefore ι P i 9 hi r = rowInf ι P ⟨1024 * i + r.val, by have := r.isLt; omega⟩ 9216 := rfl

/-- Before the first tile of a batch the column accumulator is at its start. -/
theorem colBefore_zero_zero (c : Fin 9216) : colBefore ι P 0 0 c = ι := by
  unfold colBefore
  rw [if_neg (by omega)]
  exact colInf_zero ι P c

/-- A new row tile starts where the previous one ended. -/
theorem colBefore_next_row (i : ℕ) (c : Fin 9216) : colBefore ι P (i + 1) 0 c = colBefore ι P i 9 c := by
  unfold colBefore
  rw [if_neg (by omega), if_pos (by have := c.isLt; omega)]

/-- One tile further: the columns of tile j meet the tile's column minima, the others are untouched. -/
theorem colBefore_succ (i j : ℕ) (hi : i < 9) (hj : j < 9) (c : Fin 9216) :
    (if h : 1024 * j ≤ c.val ∧ c.val < 1024 * j + 1024 then
        min (colBefore ι P i j c) (tileColMin ι P i j hi hj ⟨c.val - 1024 * j, by omega⟩)
      else colBefore ι P i j c) = colBefore ι P i (j + 1) c := by
  unfold colBefore
  by_cases h : 1024 * j ≤ c.val ∧ c.val < 1024 * j + 1024
  · rw [dif_pos h, if_neg (by omega), if_pos (by omega)]
    unfold tileColMin
    have e : (⟨1024 * j + (c.val - 1024 * j), by omega⟩ : Fin 9216) = c :=
      Fin.ext (by show 1024 * j + (c.val - 1024 * j) = c.val; omega)
    have := colInf_step ι P c (1024 * i) (by omega)
    rw [show 1024 * (i + 1) = 1024 * i + 1024 from Nat.mul_succ _ _, ← this]
    congr 2
    funext r
    show P _ _ = P _ _
    rw [e]
  · rw [dif_neg h]
    by_cases h' : c.val < 1024 * j
    · rw [if_pos h', if_pos (by omega)]
    · rw [if_neg h', if_neg (by omega)]

/-- After the last tile of a batch the column accumulator holds the complete column minima. -/
theorem colBefore_last (c : Fin 9216) : colBefore ι P 8 9 c = colInf ι P c 9216 := by
  unfold colBefore
  rw [if_pos (by have := c.isLt; omega)]

end Cert.Chamfer

end
-- ==== Proof.ChamferResult.lean ====
/-
  The two-sided nearest-neighbour sum of two point clouds, as one function of the coordinate arrays.

  X and Y hold, per batch, 9216 points with 3 coordinates each. The squared distance between point n of X and
  point m of Y is written the way both programs compute it, |x|^2 + |y|^2 - 2 <x, y>, with the factor 2 an
  opaque constant. Per batch the value is the sum over the points of X of the squared distance to the nearest
  point of Y plus the same with the roles exchanged; the result divides the sum over the batches by an opaque
  divisor. Minima are folds of min from an opaque starting value (see the companion module on the tiled sweep).
-/
import Idealize.ShloMosaic.PureOps
import Idealize.ShloMosaic.Lib.ValueIdx
import proofs.«125769_j48292612276314_1_alg».proof.Proof.ChamferSpec

noncomputable section

namespace Cert.Chamfer

open scoped BigOperators
open Idealize.ShloMosaic Idealize.ShloMosaic.ValueIdx

/-- A coordinate array: batch, point, coordinate. -/
abbrev Pts : Type := (⟨3, ![2, 9216, 3]⟩ : Shape).Idx → EReal

/-- One tile of 1024 points of one batch, as a kernel block holds it. -/
abbrev Blk : Type := (⟨3, ![1, 1024, 3]⟩ : Shape).Idx → EReal

/-- The squared distance between point n of X and point m of Y in batch b. -/
def sqd (two : EReal) (X Y : Pts) (b : Fin 2) (n m : Fin 9216) : EReal :=
  ((∑ k : Fin 3, X (ix3 b n k) * X (ix3 b n k)) + (∑ k : Fin 3, Y (ix3 b m k) * Y (ix3 b m k)))
    - two * ∑ k : Fin 3, X (ix3 b n k) * Y (ix3 b m k)

/-- The same between row r of a block of X and row cc of a block of Y. -/
def tileSqd (two : EReal) (x y : Blk) (r cc : Fin 1024) : EReal :=
  ((∑ k : Fin 3, x (ix3 0 r k) * x (ix3 0 r k)) + (∑ k : Fin 3, y (ix3 0 cc k) * y (ix3 0 cc k)))
    - two * ∑ k : Fin 3, x (ix3 0 r k) * y (ix3 0 cc k)

/-- One batch's value: the sum of the row minima plus the sum of the column minima. -/
def batchValue (ι two : EReal) (X Y : Pts) (b : Fin 2) : EReal :=
  rowTotal ι (sqd two X Y b) 9 + colTotal ι (sqd two X Y b)

/-- The sum over the batches, from a zero start. -/
def numerator (ι two : EReal) (X Y : Pts) : EReal := 0 + ∑ b : Fin 2, batchValue ι two X Y b

/-- Summing the column minima and the row minima separately over all batches, each from a zero start, and adding
    the two gives the same number: addition on the extended reals is commutative and associative. -/
theorem numerator_eq (ι two : EReal) (X Y : Pts) :
    (0 + ∑ b : Fin 2, ∑ m : Fin 9216, colInf ι (sqd two X Y b) m 9216)
      + (0 + ∑ b : Fin 2, ∑ n : Fin 9216, rowInf ι (sqd two X Y b) n 9216) = numerator ι two X Y := by
  unfold numerator batchValue colTotal
  simp only [rowTotal_all, zero_add, Finset.sum_add_distrib]
  exact add_comm _ _

/-- The starting value of every minimum and the factor of the inner product, as the two programs spell them: the
    single-precision patterns of +infinity and of 2. Neither is ever evaluated. -/
abbrev posInf : EReal := Ideal.ofBits .f32 0x7F800000#32
abbrev twoLit : EReal := Ideal.ofBits .f32 0x40000000#32

/-- The result both programs end with: the sum over the batches divided by the constant 2, as a rank-0 array. -/
def result (X Y : Pts) : FVec Ideal (⟨0, ![]⟩ : Shape) .f32 :=
  Host.divf (F := Ideal) (fun _ => numerator posInf twoLit X Y) (constant (⟨0, ![]⟩ : Shape) .f32 0x40000000#32)

end Cert.Chamfer

end
-- ==== Proof.LibPlainDot.lean ====
/-
  General lemmas about a contraction of a matrix's columns with another matrix's rows, read at the
  extended reals, and about a sum along the rows of a matrix.

  * A dot whose dimension numbers contract axis 1 of an [M, K] operand with axis 0 of a [K, N] operand, with
    no batch axis, has at the output entry (p, q) the operand entries (p, k) and (k, q) at contraction
    position k, so its value there is the textbook sum over k of l (p, k) · r (k, q). This holds for every
    record with those dimension numbers, whatever its well-formedness proof.
  * The same for a kernel's matrix product into a zero accumulator and for the host's dot_general.
  * A sum of a [R, C] matrix along axis 1 at row p is the sum over k of the entries (p, k).
  * A vector made a column, [a] to [a, 1] (or to [a, 1, 1]), a column made a vector again, and a column repeated along
    the rows, [a, 1] to [a, b], each read at an entry.
-/
import Idealize.ShloMosaic.PureOps.Ideal.Laws
import Idealize.ShloMosaic.Lib.ValueIdx
import Idealize.ShloMosaic.Lib.ValueLayout

noncomputable section

namespace Idealize.ShloMosaic.PlainDot

open Idealize.ShloMosaic Idealize.ShloMosaic.ValueIdx
open scoped BigOperators

variable {M K N : Nat}

/-- The record with the dimension numbers of a plain matrix product, at any well-formedness proof. -/
abbrev mk (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) :=
  ⟨[1], [0], [0], [1], [], [], wf⟩

section
variable (wf : DotDims.WF (⟨2, ![M, K]⟩ : Shape) (⟨2, ![K, N]⟩ : Shape) (⟨2, ![M, N]⟩ : Shape) [1] [0] [0] [1] [] [])

theorem lhs0 (j : (⟨2, ![M, N]⟩ : Shape).Idx) (q : (mk wf).contr.Idx) : ((mk wf).lhsIdx j q 0).val = (j 0).val := by
  unfold DotDims.lhsIdx
  rw [dif_neg (show ¬(0 : Fin (⟨2, ![M, K]⟩ : Shape).rank) ∈ (mk wf).lhsBatch from List.not_mem_nil),
    dif_pos (show (0 : Fin (⟨2, ![M, K]⟩ : Shape).rank) ∈ (mk wf).lhsNonContracting from List.mem_singleton_self _)]
  rfl

theorem lhs1 (j : (⟨2, ![M, N]⟩ : Shape).Idx) (q : (mk wf).contr.Idx) : ((mk wf).lhsIdx j q 1).val = (q ⟨0, Nat.one_pos⟩).val :=
  (mk wf).lhsIdx_val_of_single rfl j q

theorem rhs0 (j : (⟨2, ![M, N]⟩ : Shape).Idx) (q : (mk wf).contr.Idx) : ((mk wf).rhsIdx j q 0).val = (q ⟨0, Nat.one_pos⟩).val :=
  (mk wf).rhsIdx_val_of_single rfl j q

theorem rhs1 (j : (⟨2, ![M, N]⟩ : Shape).Idx) (q : (mk wf).contr.Idx) : ((mk wf).rhsIdx j q 1).val = (j 1).val := by
  unfold DotDims.rhsIdx
  rw [dif_neg (show ¬(1 : Fin (⟨2, ![K, N]⟩ : Shape).rank) ∈ (mk wf).rhsBatch from List.not_mem_nil),
    dif_pos (show (1 : Fin (⟨2, ![K, N]⟩ : Shape).rank) ∈ (mk wf).rhsNonContracting from List.mem_singleton_self _)]
  rfl

/-- The contraction sum of a plain product at the entry (p, q): over k, the left entry (p, k) times the right entry (k, q). -/
theorem sum_mk {α : Type} [AddCommMonoid α] [Mul α] (l : (⟨2, ![M, K]⟩ : Shape).Idx → α) (r : (⟨2, ![K, N]⟩ : Shape).Idx → α)
    (p : Fin M) (q : Fin N) :
    ∑ k : (mk wf).contr.Idx, l ((mk wf).lhsIdx (ix2 p q) k) * r ((mk wf).rhsIdx (ix2 p q) k)
      = ∑ k : Fin K, l (ix2 p k) * r (ix2 k q) := by
  rw [← Equiv.sum_comp (contrEquiv1 (mk wf) K rfl rfl).symm]
  refine Finset.sum_congr rfl fun k _ => ?_
  have hk := contrEquiv1_symm_val (mk wf) K rfl rfl k
  have el : (mk wf).lhsIdx (ix2 p q) ((contrEquiv1 (mk wf) K rfl rfl).symm k) = ix2 p k := funext fun a => Fin.ext (by
    match a with
    | ⟨0, _⟩ => exact lhs0 wf _ _
    | ⟨1, _⟩ => exact (lhs1 wf _ _).trans hk)
  have er : (mk wf).rhsIdx (ix2 p q) ((contrEquiv1 (mk wf) K rfl rfl).symm k) = ix2 k q := funext fun a => Fin.ext (by
    match a with
    | ⟨0, _⟩ => exact (rhs0 wf _ _).trans hk
    | ⟨1, _⟩ => exact rhs1 wf _ _)
  rw [el, er]
end

/-- Every record whose dimension numbers are the plain product's is `mk` of its own well-formedness proof. -/
theorem sum_of_plain {α : Type} [AddCommMonoid α] [Mul α]
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  simp only at h1 h2 h3 h4 h5 h6
  subst h1 h2 h3 h4 h5 h6
  exact sum_mk wf l r p q

/-- A kernel's matrix product into the zero accumulator, at the entry (p, q). -/
theorem matmul_zero_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal (⟨2, ![M, K]⟩ : Shape) φ₁) (r : FVec Ideal (⟨2, ![K, N]⟩ : Shape) φ₂)
    (p : Fin M) (q : Fin N) :
    FloatOps.matmul D prec l r (constant (⟨2, ![M, N]⟩ : Shape) .f32 0x00000000#32) (ix2 p q)
      = ∑ k : Fin K, (l (ix2 p k) : EReal) * (r (ix2 k q) : EReal) :=
  (Ideal.matmul_constant_zero_apply D prec l r (ix2 p q)).trans
    (sum_of_plain (α := EReal) D h1 h2 h3 h4 h5 h6 l r p q)

/-- The host's dot_general of the same dimension numbers, at the entry (p, q). -/
theorem dotGeneral_apply {φ₁ φ₂ : FTy}
    (D : DotDims (⟨2, ![M, K]⟩ : Shape) (⟨2, ![K, N]⟩ : Shape) (⟨2, ![M, N]⟩ : Shape))
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (sched : HostSchedule)
    (l : FVec Ideal (⟨2, ![M, K]⟩ : Shape) φ₁) (r : FVec Ideal (⟨2, ![K, N]⟩ : Shape) φ₂) (p : Fin M) (q : Fin N) :
    FloatOps.dotGeneral D prec sched l r (ix2 p q) = ∑ k : Fin K, (l (ix2 p k) : EReal) * (r (ix2 k q) : EReal) :=
  (Ideal.dotGeneral_apply D prec sched l r (ix2 p q)).trans
    (sum_of_plain (α := EReal) D h1 h2 h3 h4 h5 h6 l r p q)

/-- A kernel's sum of an [R, C] matrix along axis 1, at row p: the sum over k of the entries (p, k). -/
theorem rowSum_apply {R C : Nat} {φ : FTy} (src : FVec Ideal (⟨2, ![R, C]⟩ : Shape) φ) (acc : BitVec φ.bits)
    (h : Shape.Reduces (⟨2, ![R, C]⟩ : Shape) [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, (src (ix2 p k) : EReal) := by
  refine (Ideal.multiReduction_add_single src acc h hφ hacc (ix1 p)).trans ?_
  refine Finset.sum_congr rfl fun k _ => congrArg src ?_
  funext a
  exact Fin.ext (by match a with | ⟨0, _⟩ => rfl | ⟨1, _⟩ => rfl)

/-- An `[a]` vector cast to the column `[a, 1]` reads, at `(i, 0)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast along the rows to `[a, b]` reads, at `(p, c)`, the operand at `(p, 0)`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to `[a, 1, 1]` reads, at `(i, 0, 0)`, the operand at `i`. -/
theorem shapeCast_a_a11_apply {α : Type} {a : ℕ} (x : (⟨1, ![a]⟩ : Shape).Idx → α) (h : (⟨1, ![a]⟩ : Shape).ShapeCasts ⟨3, ![a, 1, 1]⟩)
    (i : Fin a) (u w : Fin 1) : shapeCast ⟨3, ![a, 1, 1]⟩ x h (ix3 i u w) = x (ix1 i) :=
  shapeCast_apply x h _ _ (by
    have hu : u.val = 0 := by omega
    have hw : w.val = 0 := by omega
    rw [Shape.rowMajor_val_three, Shape.rowMajor_val_one]
    show i.val = (i.val * 1 + u.val) * 1 + w.val
    omega)

end Idealize.ShloMosaic.PlainDot

end
-- ==== Proof.LibReduceMinMax.lean ====
/-
  General lemmas on one-axis minimum and maximum reductions at the ideal values (the extended reals).

  * A kernel's `vector.multi_reduction <minimumf>` over ONE axis, read at a result index `j`, is the fold of `min` from the
    accumulator's value over that axis's coordinates (`Shape.Reduces.lift`: `j` with the coordinate inserted) — the twin of
    the library's `Ideal.multiReduction_maximumf_single`.
  * The host's one-operand `stablehlo.reduce` with a `minimum` / `maximum` body over one axis is the same fold from the
    initial value's element, spelt with `min` / `max`.
  * The two starting words: the f32 pattern of +∞ is the top of the extended reals and that of −∞ its bottom, so a fold of
    `min` from the first (of `max` from the second) over a finite set is the set's infimum (supremum).
-/
import Idealize.ShloMosaic.PureOps.Ideal.Laws

namespace Cert.Lib

open Idealize.ShloMosaic

variable {φ : FTy}

/-- A float `vector.multi_reduction <minimumf>` over one axis, read at `Ideal`: the fold of `min` from the accumulator's
    value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's `stablehlo.reduce` with a `minimum` body over one axis, read at `Ideal`. -/
theorem hostReduce_minimumf_single {s t u : Shape} {a : Fin s.rank} (x : s.Idx → Ideal φ) (init : u.Idx → Ideal φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

/-- The host's `stablehlo.reduce` with a `maximum` body over one axis, read at `Ideal`. -/
theorem hostReduce_maximumf_single {s t u : Shape} {a : Fin s.rank} (x : s.Idx → Ideal φ) (init : u.Idx → Ideal φ)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single _ x init h' h hu j

end Cert.Lib
-- ==== Proof.Payloads.lean ====
/-
  What each stored value of the tiled kernel is, entry by entry, over the extended reals.

  The kernel's body computes, from a block x of 1024 points of the first cloud and a block y of 1024 points of the
  second, the 1024 x 1024 tile of squared distances |x_r|^2 + |y_c|^2 - 2 <x_r, y_c>; it meets each row of the
  tile into a row accumulator and each column into a slice of a column accumulator, and at the end of a row tile
  adds the row accumulator's entries to a running total. Every minimum is a fold of min from the pattern of
  +infinity; every sum is a plain finite sum (a lane reduction started from the zero pattern adds nothing).
-/
import proofs.«125769_j48292612276314_1_alg».proof.Proof.Gen.KernelIdeal.Skeleton
import proofs.«125769_j48292612276314_1_alg».proof.Proof.ChamferResult
import proofs.«125769_j48292612276314_1_alg».proof.Proof.LibPlainDot
import proofs.«125769_j48292612276314_1_alg».proof.Proof.LibReduceMinMax
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal Cert.KernelIdeal.Gen Cert.Chamfer
open scoped BigOperators

/-- The column accumulator's reset value: +infinity everywhere. -/
theorem pay5_apply (u : Fin 1) (c : Fin 9216) : k0_pay5 (F := Ideal) (ix2 u c) = posInf := by
  -- a cast to the same shape is the identity, and a broadcast scalar reads its value everywhere
  unfold k0_pay5
  rw [shapeCast_self]
  rfl

/-- The running total's reset value: zero. -/
theorem pay6_apply (u v : Fin 1) : k0_pay6 (F := Ideal) (ix2 u v) = 0 := by
  -- the broadcast scalar is the zero pattern, whose value is 0
  unfold k0_pay6
  rw [shapeCast_self]
  exact Ideal.ofBits_zero_f32

/-- The row accumulator's reset value: +infinity everywhere. -/
theorem pay7_apply (r : Fin 1024) (u : Fin 1) : k0_pay7 (F := Ideal) (ix2 r u) = posInf := by
  unfold k0_pay7
  rw [shapeCast_self]
  rfl

/-- The squared length of row r of a block, as the body computes it: the block's leading unit axis dropped, the
    entries squared, the three lanes of row r summed, and the sums kept as a column. -/
theorem normSq_apply (x : FVec Ideal S1x1024x3 .f32) (r : Fin 1024) (u : Fin 1) :
    (shapeCast S1024x1
        (multiReduction (F := Ideal) .add [1] S1024
          (mulf (F := Ideal) (φ := .f32) (shapeCast S1024x3 x shapeCasts_S1x1024x3_S1024x3)
            (shapeCast S1024x3 x shapeCasts_S1x1024x3_S1024x3))
          0x00000000#32 reduces_S1024x3_S1024 (.inl rfl) rfl)
        shapeCasts_S1024_S1024x1 (ix2 r u) : EReal)
      = ∑ k : Fin 3, (x (ix3 0 r k) : EReal) * (x (ix3 0 r k) : EReal) := by
  -- the column at (r, u) is the vector of lane sums at r
  rw [PlainDot.shapeCast_a_a1_apply]
  -- the lane sum at r is the sum over the three coordinates k of the entries (r, k)
  refine (PlainDot.rowSum_apply _ _ reduces_S1024x3_S1024 _ _ r).trans ?_
  refine Finset.sum_congr rfl fun k _ => ?_
  -- each entry is a product of the block's entry (0, r, k) with itself
  rw [mulf_apply, shapeCast_1ab_ab_apply]

/-- The tile of squared distances at (r, cc). -/
theorem pay8_apply (x y : Vec Ideal S1x1024x3 .f32) (r cc : Fin 1024) :
    k0_pay8 x y (ix2 r cc) = tileSqd twoLit x y r cc := by
  unfold k0_pay8 tileSqd
  -- entrywise: (|x_r|^2 repeated along the row + |y_cc|^2 repeated along the column) - 2 * (x yᵀ)(r, cc).
  -- The column of |x|^2 repeated along the rows reads its entry (r, 0); the column of |y|^2, transposed to a row
  -- and repeated along the columns, reads the row's entry (0, cc), which is the column's entry (cc, 0).
  rw [subf_apply, addf_apply, mulf_apply, broadcast_apply,
    PlainDot.broadcastTo_a1_ab_apply, normSq_apply,
    broadcastTo_1b_ab_apply, transpose_ix2_apply, normSq_apply]
  refine congrArg₂ (fun a s : EReal => a - twoLit * s) rfl ?_
  -- the product into the zero accumulator at (r, cc) is the sum over k of x(r, k) * yᵀ(k, cc)
  refine (PlainDot.matmul_zero_apply dot_S1024x3_S3x1024_S1024x1024_1_0_0_1_n_n rfl rfl rfl rfl rfl rfl
    (some .fp32) _ _ r cc).trans ?_
  refine Finset.sum_congr rfl fun k _ => ?_
  -- yᵀ(k, cc) = y(cc, k); both operands are the blocks with the leading unit axis dropped
  rw [transpose_ix2_apply, shapeCast_1ab_ab_apply, shapeCast_1ab_ab_apply]

/-- The row accumulator after the tile: its old entry met with the tile's row minimum. -/
theorem pay9_apply (x y : Vec Ideal S1x1024x3 .f32) (acc : Vec Ideal S1024x1 .f32) (r : Fin 1024) (u : Fin 1) :
    k0_pay9 x y acc (ix2 r u)
      = min (acc (ix2 r u)) ((Finset.univ : Finset (Fin 1024)).fold min posInf (fun cc => tileSqd twoLit x y r cc)) := by
  unfold k0_pay9
  rw [shapeCast_self, minimumf_apply, PlainDot.shapeCast_a_a1_apply]
  refine congrArg (min (acc (ix2 r u))) ?_
  -- the minimum along axis 1 at row r is the fold of min, from the pattern of +infinity, over the columns of row r
  refine (Cert.Lib.multiReduction_minimumf_single (k0_pay8 x y) _ reduces_S1024x1024_S1024 _ _ (ix1 r)).trans ?_
  show (Finset.univ : Finset (Fin 1024)).fold min posInf (k0_pay8 x y ∘ reduces_S1024x1024_S1024.lift (ix1 r)) = _
  refine congrArg ((Finset.univ : Finset (Fin 1024)).fold min posInf) ?_
  funext cc
  -- row index r with the column coordinate cc put back is (r, cc)
  refine Eq.trans (congrArg (k0_pay8 x y) ?_) (pay8_apply x y r cc)
  funext a
  exact Fin.ext (by
    match a with
    | ⟨0, _⟩ => rfl
    | ⟨1, _⟩ => rfl)

/-- The column accumulator's slice after the tile: its old entry met with the tile's column minimum. -/
theorem pay1_apply (v26 : FVec Ideal S1024x1024 .f32) (old : Vec Ideal S1x1024 .f32) (u : Fin 1) (cc : Fin 1024) :
    k0_pay1 v26 old (ix2 u cc)
      = min (old (ix2 u cc)) ((Finset.univ : Finset (Fin 1024)).fold min posInf (fun r => v26 (ix2 r cc))) := by
  unfold k0_pay1
  rw [shapeCast_self, minimumf_apply, shapeCast_a_1a_apply]
  refine congrArg (min (old (ix2 u cc))) ?_
  -- the minimum along axis 0 at column cc is the fold of min, from the pattern of +infinity, over the rows of column cc
  refine (Cert.Lib.multiReduction_minimumf_single v26 _ reduces_S1024x1024_S1024_2 _ _ (ix1 cc)).trans ?_
  show (Finset.univ : Finset (Fin 1024)).fold min posInf (v26 ∘ reduces_S1024x1024_S1024_2.lift (ix1 cc)) = _
  refine congrArg ((Finset.univ : Finset (Fin 1024)).fold min posInf) ?_
  funext r
  -- column index cc with the row coordinate r put back is (r, cc)
  refine congrArg v26 ?_
  funext a
  exact Fin.ext (by
    match a with
    | ⟨0, _⟩ => rfl
    | ⟨1, _⟩ => rfl)

/-- The running total after a finished row tile: the old total plus the sum of the row accumulator. -/
theorem pay2_apply (t : Vec Ideal S1x1 .f32) (acc : Vec Ideal S1024x1 .f32) (u v : Fin 1) :
    k0_pay2 t acc (ix2 u v) = t (ix2 u v) + ∑ r : Fin 1024, acc (ix2 r (0 : Fin 1)) := by
  unfold k0_pay2
  rw [shapeCast_self, addf_apply, PlainDot.shapeCast_a_a1_apply]
  refine congrArg (t (ix2 u v) + ·) ?_
  -- the sum along axis 0 of a [1024, 1] column, from the zero pattern, is the sum of its 1024 entries
  refine (Ideal.multiReduction_add_single acc _ reduces_S1024x1_S1 _ _ (ix1 u)).trans ?_
  refine Finset.sum_congr rfl fun k _ => congrArg acc ?_
  -- the one result index with the row coordinate k put back is (k, 0): a coordinate below 1 is 0
  funext a
  exact Fin.ext (by
    match a with
    | ⟨0, _⟩ => rfl
    | ⟨1, _⟩ => show u.val = 0; omega)

/-- The running total after the last tile of a batch: plus the sum of the column accumulator. -/
theorem pay3_apply (t : Vec Ideal S1x1 .f32) (col : Vec Ideal S1x9216 .f32) (u v : Fin 1) :
    k0_pay3 t col (ix2 u v) = t (ix2 u v) + ∑ c : Fin 9216, col (ix2 (0 : Fin 1) c) := by
  unfold k0_pay3
  rw [shapeCast_self, addf_apply, PlainDot.shapeCast_a_a1_apply]
  refine congrArg (t (ix2 u v) + ·) ?_
  -- the only row is row 0, and the sum along axis 1 at row 0 is the sum of that row's 9216 entries
  obtain rfl : u = 0 := Subsingleton.elim _ _
  exact PlainDot.rowSum_apply col _ reduces_S1x9216_S1 _ _ 0

/-- The output block: the running total. -/
theorem pay4_apply (t : Vec Ideal S1x1 .f32) (u v w : Fin 1) :
    k0_pay4 t (ix3 u v w) = t (ix2 (0 : Fin 1) (0 : Fin 1)) := by
  -- every coordinate below 1 is 0, and a leading unit axis added by a cast leaves the entries where they were
  obtain rfl : v = 0 := Subsingleton.elim _ _
  obtain rfl : w = 0 := Subsingleton.elim _ _
  exact shapeCast_ab_1ab_apply t shapeCasts_S1x1_S1x1x1 u 0 0

end Cert.KernelIdeal.Pay

end
-- ==== Proof.Invariant.lean ====
/-
  What the kernel's accumulators hold after every grid point.

  Grid point t is tile (i, j) = (t / 9 mod 9, t mod 9) of batch b = t / 81. After it the row accumulator holds,
  for each row of row tile i, the minimum of the squared distances over the column tiles 0 .. j; the column
  accumulator holds, for each column, the minimum over the row tiles visited so far (one more for the columns of the
  tiles 0 .. j); the running total holds the sum of the complete row minima of the finished row tiles, and after the
  last tile of the batch also the sum of the complete column minima. Proved by induction on the point, one step
  per case of the body.
-/
import proofs.«125769_j48292612276314_1_alg».proof.Proof.Pieces
import proofs.«125769_j48292612276314_1_alg».proof.Proof.Blocks
import proofs.«125769_j48292612276314_1_alg».proof.Proof.Payloads
import proofs.«125769_j48292612276314_1_alg».proof.Proof.ChamferResult

noncomputable section

open Idealize.ShloMosaic Idealize.ShloMosaic.TcCoe Idealize.SL.Sem Idealize.ShloMosaic.ValueIdx
open scoped BigOperators

namespace Cert.KernelIdeal.Inv

open Cert.KernelIdeal Cert.KernelIdeal.Gen Cert.Chamfer Cert.KernelIdeal.Pieces Cert.KernelIdeal.Blocks Cert.KernelIdeal.Pay

variable (m : (ℓ : Loc nD τ sig) → Buf (Elt Ideal) ℓ) (c : Dev nD)

/-- The two clouds as the kernel finds them. -/
abbrev cloudX : Pts := V m c main_v0
abbrev cloudY : Pts := V m c main_v1

/-- The blocks staged at point t. -/
abbrev xb (t : Fin cfg0.N) : Vec Ideal S1x1024x3 .f32 := iblk m c 0 t
abbrev yb (t : Fin cfg0.N) : Vec Ideal S1x1024x3 .f32 := iblk m c 1 t

/-- Batch b's matrix of squared distances (zero beyond the two batches: never consulted). -/
def mat (b : ℕ) : Fin 9216 → Fin 9216 → EReal :=
  if hb : b < 2 then sqd twoLit (cloudX m c) (cloudY m c) ⟨b, hb⟩ else fun _ _ => 0

/-- The row accumulator before tile (i, j) of batch b. -/
def rowSt (b i j : ℕ) : Vec Ideal S1024x1 .f32 := fun y =>
  if hi : i < 9 then rowBefore posInf (mat m c b) i j hi ⟨(y 0).val, idx2_lt0 y⟩ else 0

/-- The column accumulator before tile (i, j) of batch b. -/
def colSt (b i j : ℕ) : Vec Ideal S1x9216 .f32 := fun y =>
  colBefore posInf (mat m c b) i j ⟨(y 1).val, idx2_lt1 y⟩

/-- The running total before tile (i, j) of batch b; j = 9 stands for "after the last column tile". -/
def totVal (b i j : ℕ) : EReal :=
  if j = 9 then
    (if i = 8 then rowTotal posInf (mat m c b) 9 + colTotal posInf (mat m c b) else rowTotal posInf (mat m c b) (i + 1))
  else rowTotal posInf (mat m c b) i

def totSt (b i j : ℕ) : Vec Ideal S1x1 .f32 := fun _ => totVal m c b i j

/-- The tile of point t is the tile (t / 9 mod 9, t mod 9) of batch t / 81's matrix. -/
theorem tile_eq (t : Fin cfg0.N) (r cc : Fin 1024) :
    tileSqd twoLit (xb m c t) (yb m c t) r cc
      = mat m c (t.val / 81) ⟨1024 * (t.val / 9 % 9) + r.val, by have := r.isLt; omega⟩
          ⟨1024 * (t.val % 9) + cc.val, by have := cc.isLt; omega⟩ := by
  have hb : t.val / 81 < 2 := by have := t_lt t; omega
  unfold mat
  rw [dif_pos hb]
  unfold tileSqd sqd
  simp only [xblk_apply, yblk_apply]

/-- The reset row accumulator is the state before the first column tile. -/
theorem rowReset (b i : ℕ) (hi : i < 9) : (k0_pay7 (F := Ideal)) = rowSt m c b i 0 := by
  funext y
  obtain ⟨r, u, rfl⟩ : ∃ (r : Fin 1024) (u : Fin 1), y = ix2 r u := ⟨y 0, y 1, eq_ix2 y⟩
  rw [pay7_apply]
  unfold rowSt
  rw [dif_pos hi]
  exact (rowBefore_zero posInf (mat m c b) i hi _).symm

/-- One tile: the row accumulator moves from the state before tile (i, j) to the state before tile (i, j + 1). -/
theorem rowStep (t : Fin cfg0.N) (acc : Vec Ideal S1024x1 .f32)
    (hacc : acc = rowSt m c (t.val / 81) (t.val / 9 % 9) (t.val % 9)) :
    k0_pay9 (xb m c t) (yb m c t) acc = rowSt m c (t.val / 81) (t.val / 9 % 9) (t.val % 9 + 1) := by
  have hi : t.val / 9 % 9 < 9 := Nat.mod_lt _ (by decide)
  have hj : t.val % 9 < 9 := Nat.mod_lt _ (by decide)
  subst hacc
  funext y
  obtain ⟨r, u, rfl⟩ : ∃ (r : Fin 1024) (u : Fin 1), y = ix2 r u := ⟨y 0, y 1, eq_ix2 y⟩
  rw [pay9_apply]
  unfold rowSt
  rw [dif_pos hi, dif_pos hi]
  show min (rowBefore posInf (mat m c (t.val / 81)) (t.val / 9 % 9) (t.val % 9) hi r) _
    = rowBefore posInf (mat m c (t.val / 81)) (t.val / 9 % 9) (t.val % 9 + 1) hi r
  rw [← rowBefore_succ posInf (mat m c (t.val / 81)) (t.val / 9 % 9) (t.val % 9) hi hj r]
  congr 1
  unfold tileRowMin
  congr 1
  funext cc
  exact tile_eq m c t r cc

/-- The reset column accumulator is the state before the first tile of a batch. -/
theorem colReset (b : ℕ) : (k0_pay5 (F := Ideal)) = colSt m c b 0 0 := by
  funext y
  obtain ⟨u, cidx, rfl⟩ : ∃ (u : Fin 1) (cidx : Fin 9216), y = ix2 u cidx := ⟨y 0, y 1, eq_ix2 y⟩
  rw [pay5_apply]
  unfold colSt
  exact (colBefore_zero_zero posInf (mat m c b) _).symm

/-- One tile: the column accumulator moves from the state before tile (i, j) to the state before tile (i, j + 1),
    given that the new contents are the old ones met with the tile's column minima on the tile's columns and the
    old ones elsewhere. -/
theorem colStep (t : Fin cfg0.N) (old new : Vec Ideal S1x9216 .f32)
    (hold : old = colSt m c (t.val / 81) (t.val / 9 % 9) (t.val % 9))
    (hmem : ∀ (cc : Fin 1024) (y : S1x9216.Idx), (y 0).val = 0 → (y 1).val = 1024 * (grid0.coords t 2).val + cc.val →
      new y = k0_pay1 (k0_pay8 (xb m c t) (yb m c t))
        (View.ld old (Rect.unit (s := S1x9216) (k0_off1 (grid0.coords t)) S1x1024.size (k0_off1_inb (grid0.coords t))))
        (ix2 (0 : Fin 1) cc))
    (hnot : ∀ y : S1x9216.Idx, ((y 1).val < 1024 * (grid0.coords t 2).val ∨ 1024 * (grid0.coords t 2).val + 1024 ≤ (y 1).val) →
      new y = old y) :
    new = colSt m c (t.val / 81) (t.val / 9 % 9) (t.val % 9 + 1) := by
  have hi : t.val / 9 % 9 < 9 := Nat.mod_lt _ (by decide)
  have hj : t.val % 9 < 9 := Nat.mod_lt _ (by decide)
  have hc2 := coord2 t
  funext y
  obtain ⟨u, cidx, rfl⟩ : ∃ (u : Fin 1) (cidx : Fin 9216), y = ix2 u cidx := ⟨y 0, y 1, eq_ix2 y⟩
  have hu : u.val = 0 := by omega
  unfold colSt
  show new (ix2 u cidx) = colBefore posInf (mat m c (t.val / 81)) (t.val / 9 % 9) (t.val % 9 + 1) cidx
  rw [← colBefore_succ posInf (mat m c (t.val / 81)) (t.val / 9 % 9) (t.val % 9) hi hj cidx]
  by_cases h : 1024 * (t.val % 9) ≤ cidx.val ∧ cidx.val < 1024 * (t.val % 9) + 1024
  · rw [dif_pos h]
    rw [hmem ⟨cidx.val - 1024 * (t.val % 9), by omega⟩ (ix2 u cidx) hu
      (by show cidx.val = 1024 * (grid0.coords t 2).val + (cidx.val - 1024 * (t.val % 9)); rw [hc2]; omega)]
    rw [pay1_apply]
    congr 1
    · subst hold
      show colSt m c (t.val / 81) (t.val / 9 % 9) (t.val % 9)
        ((Rect.unit (s := S1x9216) (k0_off1 (grid0.coords t)) S1x1024.size (k0_off1_inb (grid0.coords t))).emb
          (ix2 (0 : Fin 1) (⟨cidx.val - 1024 * (t.val % 9), by omega⟩ : Fin 1024))) = _
      unfold colSt
      congr 1
      apply Fin.ext
      show k0_off1 (grid0.coords t) 1 + 1 * (cidx.val - 1024 * (t.val % 9)) = cidx.val
      rw [k0_off1_eq]
      show 1024 * (grid0.coords t 2).val + 1 * (cidx.val - 1024 * (t.val % 9)) = cidx.val
      rw [hc2]
      omega
    · unfold tileColMin
      congr 1
      funext r
      rw [pay8_apply]
      exact tile_eq m c t r ⟨cidx.val - 1024 * (t.val % 9), by omega⟩
  · rw [dif_neg h]
    rw [hnot (ix2 u cidx) (by show cidx.val < 1024 * (grid0.coords t 2).val ∨ 1024 * (grid0.coords t 2).val + 1024 ≤ cidx.val; rw [hc2]; omega), hold]
    rfl

/-- The finished row accumulator sums to the next block of the running total. -/
theorem rowSum (b i : ℕ) (hi : i < 9) :
    ∑ r : Fin 1024, rowSt m c b i 9 (ix2 r (0 : Fin 1))
      = ∑ r : Fin 1024, rowInf posInf (mat m c b) ⟨1024 * i + r.val, by have := r.isLt; omega⟩ 9216 := by
  refine Finset.sum_congr rfl fun r _ => ?_
  unfold rowSt
  rw [dif_pos hi]
  rfl

/-- The finished column accumulator sums to the total of the column minima. -/
theorem colSum (b : ℕ) :
    ∑ cidx : Fin 9216, colSt m c b 8 9 (ix2 (0 : Fin 1) cidx) = colTotal posInf (mat m c b) := by
  unfold colTotal
  refine Finset.sum_congr rfl fun cidx _ => ?_
  unfold colSt
  exact colBefore_last posInf (mat m c b) _

end Cert.KernelIdeal.Inv

end
-- ==== Proof.Induction.lean ====
/-
  The accumulators after every grid point, by induction on the point.

  Each of the body's five cases carries the state before its tile to the state after it: the first tile of a batch
  starts all three accumulators afresh; the first column tile of a later row tile restarts the row accumulator; a
  middle tile only meets minima; the last column tile also adds the finished row minima to the total; and the last
  tile of a batch adds the finished column minima too and hands the total to the output block.
-/
import proofs.«125769_j48292612276314_1_alg».proof.Proof.Invariant

set_option maxRecDepth 16384

noncomputable section

open Idealize.ShloMosaic Idealize.ShloMosaic.TcCoe Idealize.SL.Sem Idealize.ShloMosaic.ValueIdx
open scoped BigOperators

namespace Cert.KernelIdeal.Inv

open Cert.KernelIdeal Cert.KernelIdeal.Gen Cert.Chamfer Cert.KernelIdeal.Pieces Cert.KernelIdeal.Blocks Cert.KernelIdeal.Pay

variable (m : (ℓ : Loc nD τ sig) → Buf (Elt Ideal) ℓ) (c : Dev nD)

/-- After point n the three accumulators hold the state before the next tile of the same row tile. -/
def StateAt (n : ℕ) (h : n < cfg0.N) : Prop :=
  (outsAt0 m c n h).2.1 = rowSt m c (n / 81) (n / 9 % 9) (n % 9 + 1)
    ∧ (outsAt0 m c n h).2.2.1 = colSt m c (n / 81) (n / 9 % 9) (n % 9 + 1)
    ∧ (outsAt0 m c n h).2.2.2 = totSt m c (n / 81) (n / 9 % 9) (n % 9 + 1)

/-- A new row tile finds the column accumulator as the previous row tile left it. -/
theorem colSt_next_row (b i : ℕ) : colSt m c b (i + 1) 0 = colSt m c b i 9 := by
  funext y
  unfold colSt
  exact colBefore_next_row posInf (mat m c b) i _

/-- The first tile of a batch. -/
theorem stateA (t : Fin cfg0.N) (h0 : t.val % 81 = 0) : StateAt m c t.val t.isLt := by
  have h1 : t.val % 9 = 0 := by omega
  have h2 : ¬ t.val % 9 = 8 := by omega
  have h3 : ¬ t.val % 81 = 80 := by omega
  have hi0 : t.val / 9 % 9 = 0 := by omega
  unfold StateAt
  rw [outsAt0_A m c t h0 h1 h2 h3]
  dsimp only
  refine ⟨?_, ?_, ?_⟩
  · rw [rowA]
    exact rowStep m c t _ (by rw [h1]; exact rowReset m c _ _ (by omega))
  · exact colStep m c t (k0_pay5 (F := Ideal)) (sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t)) (by rw [h1, hi0]; exact colReset m c _)
      (fun cc y hy0 hy1 => colA_mem c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) cc y hy0 hy1)
      (fun y hy => colA_not_mem c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) y hy)
  · rw [totA]
    funext y
    obtain ⟨u, v, rfl⟩ : ∃ (u : Fin 1) (v : Fin 1), y = ix2 u v := ⟨y 0, y 1, eq_ix2 y⟩
    rw [pay6_apply]
    unfold totSt totVal
    rw [if_neg (by omega), hi0]
    exact (rowTotal_zero posInf (mat m c _)).symm

/-- A middle tile. -/
theorem stateB (t : Fin cfg0.N) (h0 : ¬ t.val % 81 = 0) (h1 : ¬ t.val % 9 = 0) (h2 : ¬ t.val % 9 = 8) (h3 : ¬ t.val % 81 = 80)
    (hp : StateAt m c (t.val - 1) (Nat.lt_of_le_of_lt (Nat.sub_le _ _) t.isLt)) : StateAt m c t.val t.isLt := by
  obtain ⟨pr, pc, pt⟩ := hp
  have e1 : (t.val - 1) / 81 = t.val / 81 := by omega
  have e2 : (t.val - 1) / 9 % 9 = t.val / 9 % 9 := by omega
  have e3 : (t.val - 1) % 9 + 1 = t.val % 9 := by omega
  rw [e1, e2, e3] at pr pc pt
  unfold StateAt
  rw [outsAt0_B m c t h0 h1 h2 h3]
  dsimp only
  refine ⟨?_, ?_, ?_⟩
  · rw [rowB]
    exact rowStep m c t _ pr
  · exact colStep m c t _ (sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) pc
      (fun cc y hy0 hy1 => colB_mem c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 cc y hy0 hy1)
      (fun y hy => colB_not_mem c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 y hy)
  · rw [totB, pt]
    unfold totSt totVal
    rw [if_neg (by omega), if_neg (by omega)]

/-- The first column tile of a later row tile. -/
theorem stateD (t : Fin cfg0.N) (h0 : ¬ t.val % 81 = 0) (h1 : t.val % 9 = 0) (h2 : ¬ t.val % 9 = 8) (h3 : ¬ t.val % 81 = 80)
    (hp : StateAt m c (t.val - 1) (Nat.lt_of_le_of_lt (Nat.sub_le _ _) t.isLt)) : StateAt m c t.val t.isLt := by
  obtain ⟨pr, pc, pt⟩ := hp
  have e1 : (t.val - 1) / 81 = t.val / 81 := by omega
  have e2 : (t.val - 1) / 9 % 9 + 1 = t.val / 9 % 9 := by omega
  have e3 : (t.val - 1) % 9 + 1 = 9 := by omega
  rw [e1, e3] at pc pt
  unfold StateAt
  rw [outsAt0_D m c t h0 h1 h2 h3]
  dsimp only
  refine ⟨?_, ?_, ?_⟩
  · rw [rowD]
    exact rowStep m c t _ (by rw [h1]; exact rowReset m c _ _ (Nat.mod_lt _ (by decide)))
  · exact colStep m c t _ (sout0_D_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2) (by rw [pc, h1, ← e2]; exact (colSt_next_row m c _ _).symm)
      (fun cc y hy0 hy1 => colD_mem c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 cc y hy0 hy1)
      (fun y hy => colD_not_mem c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2 y hy)
  · rw [totD, pt]
    unfold totSt totVal
    have hlt : t.val / 9 % 9 < 9 := Nat.mod_lt _ (by decide)
    rw [if_pos rfl, if_neg (by omega), if_neg (by omega), e2]

/-- The last column tile of a row tile that is not the last. -/
theorem stateC (t : Fin cfg0.N) (h0 : ¬ t.val % 81 = 0) (h1 : ¬ t.val % 9 = 0) (h2 : t.val % 9 = 8) (h3 : ¬ t.val % 81 = 80)
    (hp : StateAt m c (t.val - 1) (Nat.lt_of_le_of_lt (Nat.sub_le _ _) t.isLt)) : StateAt m c t.val t.isLt := by
  obtain ⟨pr, pc, pt⟩ := hp
  have e1 : (t.val - 1) / 81 = t.val / 81 := by omega
  have e2 : (t.val - 1) / 9 % 9 = t.val / 9 % 9 := by omega
  have e3 : (t.val - 1) % 9 + 1 = t.val % 9 := by omega
  rw [e1, e2, e3] at pr pc pt
  have hi : t.val / 9 % 9 < 9 := Nat.mod_lt _ (by decide)
  have hi8 : ¬ t.val / 9 % 9 = 8 := by omega
  unfold StateAt
  rw [outsAt0_C m c t h0 h1 h2 h3]
  dsimp only
  have hrow := rowStep m c t _ pr
  refine ⟨?_, ?_, ?_⟩
  · rw [rowC]
    exact hrow
  · exact colStep m c t _ (sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) pc
      (fun cc y hy0 hy1 => colC_mem c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 cc y hy0 hy1)
      (fun y hy => colC_not_mem c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 y hy)
  · rw [totC, hrow, pt]
    funext y
    obtain ⟨u, v, rfl⟩ : ∃ (u : Fin 1) (v : Fin 1), y = ix2 u v := ⟨y 0, y 1, eq_ix2 y⟩
    rw [pay2_apply, h2, rowSum m c _ _ hi]
    unfold totSt totVal
    rw [if_neg (by omega), if_pos rfl, if_neg hi8]
    exact (rowTotal_succ posInf (mat m c _) _ (by omega)).symm

/-- The last tile of a batch: the state, and the output block. -/
theorem stateE (t : Fin cfg0.N) (h0 : ¬ t.val % 81 = 0) (h1 : ¬ t.val % 9 = 0) (h2 : t.val % 9 = 8) (h3 : t.val % 81 = 80)
    (hp : StateAt m c (t.val - 1) (Nat.lt_of_le_of_lt (Nat.sub_le _ _) t.isLt)) :
    StateAt m c t.val t.isLt
      ∧ (outsAt0 m c t.val t.isLt).1 = k0_pay4 (totSt m c (t.val / 81) 8 9) := by
  obtain ⟨pr, pc, pt⟩ := hp
  have e1 : (t.val - 1) / 81 = t.val / 81 := by omega
  have e2 : (t.val - 1) / 9 % 9 = t.val / 9 % 9 := by omega
  have e3 : (t.val - 1) % 9 + 1 = t.val % 9 := by omega
  rw [e1, e2, e3] at pr pc pt
  have hi8 : t.val / 9 % 9 = 8 := by omega
  unfold StateAt
  rw [outsAt0_E m c t h0 h1 h2 h3]
  dsimp only
  have hrow := rowStep m c t _ pr
  have hcol := colStep m c t _ (sout0_E_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) pc
      (fun cc y hy0 hy1 => colE_mem c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 cc y hy0 hy1)
      (fun y hy => colE_not_mem c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 y hy)
  have htot : sout0_E_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 = totSt m c (t.val / 81) (t.val / 9 % 9) (t.val % 9 + 1) := by
    rw [totE, hcol, hrow, pt]
    funext y
    obtain ⟨u, v, rfl⟩ : ∃ (u : Fin 1) (v : Fin 1), y = ix2 u v := ⟨y 0, y 1, eq_ix2 y⟩
    rw [pay3_apply, pay2_apply, h2, hi8, rowSum m c _ 8 (by decide), colSum]
    unfold totSt totVal
    rw [if_neg (by decide), if_pos rfl, if_pos rfl]
    rw [rowTotal_succ posInf (mat m c _) 8 (by decide)]
  refine ⟨⟨?_, hcol, htot⟩, ?_⟩
  · rw [rowE]
    exact hrow
  · rw [outE, htot, h2, hi8]

/-- Every point. -/
theorem state : ∀ (n : ℕ) (h : n < cfg0.N), StateAt m c n h
  | 0, h => stateA m c ⟨0, h⟩ (Nat.zero_mod _)
  | n + 1, h => by
    have ih : StateAt m c n (Nat.lt_of_succ_lt h) := state n (Nat.lt_of_succ_lt h)
    by_cases h0 : (n + 1) % 81 = 0
    · exact stateA m c ⟨n + 1, h⟩ h0
    · by_cases h1 : (n + 1) % 9 = 0
      · exact stateD m c ⟨n + 1, h⟩ h0 h1 (by show ¬ (n + 1) % 9 = 8; omega) (by show ¬ (n + 1) % 81 = 80; omega) ih
      · by_cases h2 : (n + 1) % 9 = 8
        · by_cases h3 : (n + 1) % 81 = 80
          · exact (stateE m c ⟨n + 1, h⟩ h0 h1 h2 h3 ih).1
          · exact stateC m c ⟨n + 1, h⟩ h0 h1 h2 h3 ih
        · exact stateB m c ⟨n + 1, h⟩ h0 h1 h2 (by show ¬ (n + 1) % 81 = 80; omega) ih

/-- At the last tile of a batch the output block holds the batch's value. -/
theorem out_last (t : Fin cfg0.N) (h3 : t.val % 81 = 80) (u v w : Fin 1) :
    (outsAt0 m c t.val t.isLt).1 (ix3 u v w)
      = batchValue posInf twoLit (cloudX m c) (cloudY m c) ⟨t.val / 81, by have := t_lt t; omega⟩ := by
  have hpos : 0 < t.val := by omega
  have hp : StateAt m c (t.val - 1) (Nat.lt_of_le_of_lt (Nat.sub_le _ _) t.isLt) := state m c _ _
  rw [(stateE m c t (by omega) (by omega) (by omega) h3 hp).2, pay4_apply]
  unfold totSt totVal batchValue mat
  rw [if_pos rfl, if_pos rfl, dif_pos (by have := t_lt t; omega)]

end Cert.KernelIdeal.Inv

end
-- ==== Proof.KernelValue.lean ====
/-
  What the kernel program ends with.

  The pipeline writes the output block back only after the last tile of each batch, so the result array ends
  holding, at (b, 0, 0), batch b's value: the sum of its row minima plus the sum of its column minima. The two
  host operations after the kernel sum the two entries from a zero start and divide by 2.
-/
import proofs.«125769_j48292612276314_1_alg».proof.Proof.Induction
import Idealize.ShloMosaic.Lib.Pipeline.Value
import Idealize.ShloMosaic.Lib.StableHlo.Run
import Idealize.ShloMosaic.Lib.IdealHost

noncomputable section

open Idealize.ShloMosaic Idealize.ShloMosaic.TcCoe Idealize.SL.Sem Idealize.ShloMosaic.ValueIdx
open Idealize.ShloMosaic.Pipeline (Dat)
open scoped BigOperators

namespace Cert.KernelIdeal.RunValue

open Cert.KernelIdeal Cert.KernelIdeal.Gen Cert.Chamfer Cert.KernelIdeal.Blocks Cert.KernelIdeal.Inv

variable (m : (ℓ : Loc nD τ sig) → Buf (Elt Ideal) ℓ) (ρ : Dev nD → PrngReg)

/-- The result array after the run: entry (b, 0, 0) is batch b's value. -/
def outArr (c : Dev nD) : S2x1x1.Idx → EReal := fun y =>
  batchValue posInf twoLit (cloudX m c) (cloudY m c) ⟨(y 0).val, (y 0).isLt⟩

/-- What a writing point writes back is its block of that array. -/
theorem flushed_eq (c : Dev nD) (t : Fin cfg0.N) (hf : (cfg0.win 2).flush t = true) :
    (dats m 0 c).flushed 2 t = ((cfg0.win 2).blk t).view.read (Elt Ideal) (outArr m c) := by
  have h3 : t.val % 81 = 80 := (flush0_2 t).mp hf
  show (cfg0.win 2).cut (grid0.coords t) ((dats m 0 c).after 2 t) = _
  rw [after0_2]
  funext j
  obtain ⟨u, v, w, rfl⟩ : ∃ (u v w : Fin 1), j = ix3 u v w := ⟨j 0, j 1, j 2, eq_ix3 j⟩
  show (outsAt0 m c t.val t.isLt).1 (ix3 u v w) = outArr m c (((cfg0.win 2).blk t).view.emb (ix3 u v w))
  rw [out_last m c t h3 u v w]
  unfold outArr
  congr 1
  apply Fin.ext
  show t.val / 81 = win0_2.index t 0 * 1 + 1 * u.val
  rw [(index2 t).1]
  omega

/-- An index of the array is in point t's block iff each coordinate is in the block's range. -/
theorem mem_blk (t : Fin cfg0.N) (i : S2x1x1.Idx) :
    i ∈ ((cfg0.win 2).blk t).view.set ↔ ∀ a : Fin 3, win0_2.index t a * S1x1x1.size a ≤ (i a).val
      ∧ (i a).val < win0_2.index t a * S1x1x1.size a + S1x1x1.size a := by
  show i ∈ ((View.whole main_v2).slice (win0_2.rect t)).set ↔ _
  rw [View.set_slice_whole, Rect.mem_set_unit]
  exact Iff.rfl

/-- So the array ends holding the batches' values: the last tile of batch b writes entry (b, 0, 0). -/
theorem final_out (c : Dev nD) : (dats m 0 c).arrAt 2 cfg0.N = outArr m c :=
  (dats m 0 c).arrAt_eq_of_cover 2 (outArr m c) (flushed_eq m c) fun i => by
    have hi0 : (i 0).val < 2 := (i 0).isLt
    have hi1 : (i 1).val < 1 := (i 1).isLt
    have hi2 : (i 2).val < 1 := (i 2).isLt
    refine ⟨⟨81 * (i 0).val + 80, by rw [N_eq]; omega⟩, (flush0_2 _).mpr (by show (81 * (i 0).val + 80) % 81 = 80; omega), ?_⟩
    rw [mem_blk]
    intro a
    have hidx := index2 (⟨81 * (i 0).val + 80, by rw [N_eq]; omega⟩ : Fin cfg0.N)
    match a with
    | ⟨0, _⟩ =>
      show win0_2.index _ 0 * 1 ≤ (i 0).val ∧ (i 0).val < win0_2.index _ 0 * 1 + 1
      rw [hidx.1]
      show (81 * (i 0).val + 80) / 81 * 1 ≤ (i 0).val ∧ (i 0).val < (81 * (i 0).val + 80) / 81 * 1 + 1
      omega
    | ⟨1, _⟩ =>
      show win0_2.index _ 1 * 1 ≤ (i 1).val ∧ (i 1).val < win0_2.index _ 1 * 1 + 1
      rw [hidx.2.1]
      omega
    | ⟨2, _⟩ =>
      show win0_2.index _ 2 * 1 ≤ (i 2).val ∧ (i 2).val < win0_2.index _ 2 * 1 + 1
      rw [hidx.2.2]
      omega

/-- The array's two entries, one per batch. -/
def batchEquiv : Fin 2 ≃ S2x1x1.Idx where
  toFun b := ix3 b (0 : Fin 1) (0 : Fin 1)
  invFun y := y 0
  left_inv _ := rfl
  right_inv y := by
    funext a
    match a with
    | ⟨0, _⟩ => rfl
    | ⟨1, _⟩ => exact Subsingleton.elim (α := Fin 1) _ _
    | ⟨2, _⟩ => exact Subsingleton.elim (α := Fin 1) _ _

/-- Summing the array's entries is summing the batches' values. -/
theorem sum_outArr (c : Dev nD) :
    ∑ y : S2x1x1.Idx, outArr m c y = ∑ b : Fin 2, batchValue posInf twoLit (cloudX m c) (cloudY m c) b := by
  rw [← Equiv.sum_comp batchEquiv (outArr m c)]
  rfl

/-- The program's result after the host operations that follow the kernel. -/
theorem tail_v4 (c : Dev nD) :
    Pipeline.afterTail₀ cfgs (dats m) 0 (V0 m) [hostOps1] c main_v4 = result (cloudX m c) (cloudY m c) := by
  unfold Pipeline.afterTail₀
  show StableHlo.after hostOps1 _ (Proc.devRef .tc main_v4) = _
  after_results
  have hw : Pipeline.withArrays (cfgs 0).spec c (V0 m c) (fun w => (dats m 0 c).arrAt w (cfgs 0).N)
      (Proc.devRef .tc main_v2) = outArr m c :=
    (Pipeline.withArrays_arr spec0 launch0.win.arr_inj c _ _ 2).trans (final_out m c)
  rw [hw]
  unfold result
  congr 1
  funext i
  simp only [Host.reduceAdd, Ideal.hostReduceAdd_def]
  refine (Ideal.hostReduceAdd_total reducesTo_S2x1x1_S_d0_1_2 (fun b => b.elim0) (outArr m c) _ i).trans ?_
  rw [sum_outArr]
  unfold numerator
  congr 1
  exact Ideal.ofBits_zero_f32

/-- The kernel program's run, read: the result at the common function of the two clouds, the arguments unchanged. -/
theorem run : θ_run defs (onTc (τ := τ) (main (F := Ideal))) ⟨m, fun _ => 0, ρ⟩ fun r => ∀ c : Dev nD,
      r.2.mem ((c.tc : Thread nD τ).loc main_v4) = result (cloudX m c) (cloudY m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (tail_v4 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.RunValue

end
-- ==== Proof.RefValue.lean ====
/-
  The reference program's result is the two-sided nearest-neighbour sum of the reshaped arguments.

  The reference forms the full matrix of squared distances of each batch, takes its minimum along either axis, sums
  each vector of minima over all batches and points from a zero start, adds the two sums and divides by 2. Read one
  operation at a time this is: the sum over batches and columns of the column minima plus the sum over batches and
  rows of the row minima, which regroups into the sum over the batches of (row minima total + column minima total).
-/
import proofs.«125769_j48292612276314_1_alg».proof.Proof.Gen.ReferenceIdeal.Read
import proofs.«125769_j48292612276314_1_alg».proof.Proof.ChamferResult
import proofs.«125769_j48292612276314_1_alg».proof.Proof.LibReduceMinMax
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.Chamfer
open Cert.ReferenceIdeal.Facts₀
open scoped BigOperators

/-! ## The two minimum reductions, read at an index -/

/-- The minimum over the rows (axis 1) of any batch x row x column array, from any start, is the column fold. -/
theorem reduce_rows (P : S2x9216x9216.Idx → EReal) (init : S_.Idx → EReal) (b : Fin 2) (m : Fin 9216) :
    Host.reduce (FloatOps.minimumf (F := Ideal) (φ := .f32)) P init reducesTo_S2x9216x9216_S2x9216_d1 h_S_ (ix2 b m)
      = colInf (init (Shape.Idx.first h_S_)) (fun n m' => P (ix3 b n m')) m 9216 := by
  have h : S2x9216x9216.Reduces [1] S2x9216 := by decide
  refine (Cert.Lib.hostReduce_minimumf_single P init reducesTo_S2x9216x9216_S2x9216_d1 h h_S_ (ix2 b m)).trans ?_
  refine Eq.trans ?_ (colInf_all (init (Shape.Idx.first h_S_)) (fun n m' => P (ix3 b n m')) m)
  refine congrArg (fun f : Fin 9216 → EReal => (Finset.univ : Finset (Fin 9216)).fold min (init (Shape.Idx.first h_S_)) f) ?_
  funext n
  exact congrArg P (funext fun a => Fin.ext (by match a with | ⟨0, _⟩ => rfl | ⟨1, _⟩ => rfl | ⟨2, _⟩ => rfl))

/-- The minimum over the columns (axis 2) likewise is the row fold. -/
theorem reduce_cols (P : S2x9216x9216.Idx → EReal) (init : S_.Idx → EReal) (b : Fin 2) (n : Fin 9216) :
    Host.reduce (FloatOps.minimumf (F := Ideal) (φ := .f32)) P init reducesTo_S2x9216x9216_S2x9216_d2 h_S_ (ix2 b n)
      = rowInf (init (Shape.Idx.first h_S_)) (fun n' m => P (ix3 b n' m)) n 9216 := by
  have h : S2x9216x9216.Reduces [2] S2x9216 := by decide
  refine (Cert.Lib.hostReduce_minimumf_single P init reducesTo_S2x9216x9216_S2x9216_d2 h h_S_ (ix2 b n)).trans ?_
  refine Eq.trans ?_ (rowInf_all (init (Shape.Idx.first h_S_)) (fun n' m => P (ix3 b n' m)) n)
  refine congrArg (fun f : Fin 9216 → EReal => (Finset.univ : Finset (Fin 9216)).fold min (init (Shape.Idx.first h_S_)) f) ?_
  funext m
  exact congrArg P (funext fun a => Fin.ext (by match a with | ⟨0, _⟩ => rfl | ⟨1, _⟩ => rfl | ⟨2, _⟩ => rfl))

/-! ## The matrix of squared distances, entry by entry -/

/-- The squared norms of the first cloud's points: a sum of three squares from a zero start. -/
theorem v3_at (x0 : (⟨S2x96x96x3, .f32⟩ : BufTy).Contents (Elt Ideal)) (b : Fin 2) (n : Fin 9216) :
    val_main_v3 (F := Ideal) x0 (ix2 b n)
      = ∑ k : Fin 3, val_main_v0 (F := Ideal) x0 (ix3 b n k) * val_main_v0 (F := Ideal) x0 (ix3 b n k) := by
  rw [val_main_v3_apply, val_main_cst_apply, Ideal.ofBits_def, Ideal.ofBits_zero_f32, zero_add]
  refine Finset.sum_congr rfl fun k _ => ?_
  have e : idx_main_v3 (ix2 b n) k = ix3 b n k :=
    funext fun a => Fin.ext (by match a with | ⟨0, _⟩ => rfl | ⟨1, _⟩ => rfl | ⟨2, _⟩ => rfl)
  rw [val_main_v2_apply, Ideal.mulf_def, e]

/-- The squared norms of the second cloud's points. -/
theorem v5_at (x1 : (⟨S2x96x96x3, .f32⟩ : BufTy).Contents (Elt Ideal)) (b : Fin 2) (m : Fin 9216) :
    val_main_v5 (F := Ideal) x1 (ix2 b m)
      = ∑ k : Fin 3, val_main_v1 (F := Ideal) x1 (ix3 b m k) * val_main_v1 (F := Ideal) x1 (ix3 b m k) := by
  rw [val_main_v5_apply, val_main_cst_0_apply, Ideal.ofBits_def, Ideal.ofBits_zero_f32, zero_add]
  refine Finset.sum_congr rfl fun k _ => ?_
  have e : idx_main_v5 (ix2 b m) k = ix3 b m k :=
    funext fun a => Fin.ext (by match a with | ⟨0, _⟩ => rfl | ⟨1, _⟩ => rfl | ⟨2, _⟩ => rfl)
  rw [val_main_v4_apply, Ideal.mulf_def, e]

/-- The inner products of the points of the two clouds, batch by batch. -/
theorem v6_at (x0 x1 : (⟨S2x96x96x3, .f32⟩ : BufTy).Contents (Elt Ideal)) (b : Fin 2) (n m : Fin 9216) :
    val_main_v6 (F := Ideal) x0 x1 (ix3 b n m)
      = ∑ k : Fin 3, val_main_v0 (F := Ideal) x0 (ix3 b n k) * val_main_v1 (F := Ideal) x1 (ix3 b m k) := by
  rw [val_main_v6_apply]
  refine Finset.sum_congr rfl fun k _ => ?_
  have el : lidx_main_v6 (ix3 b n m) k = ix3 b n k :=
    funext fun a => Fin.ext (by match a with | ⟨0, _⟩ => rfl | ⟨1, _⟩ => rfl | ⟨2, _⟩ => rfl)
  have er : ridx_main_v6 (ix3 b n m) k = ix3 b m k :=
    funext fun a => Fin.ext (by match a with | ⟨0, _⟩ => rfl | ⟨1, _⟩ => rfl | ⟨2, _⟩ => rfl)
  rw [el, er]

/-- The entry (b, n, m) of the difference stage is the squared distance |x_n|^2 + |y_m|^2 - 2 <x_n, y_m>. -/
theorem v14_at (x0 x1 : (⟨S2x96x96x3, .f32⟩ : BufTy).Contents (Elt Ideal)) (b : Fin 2) (n m : Fin 9216) :
    val_main_v14 (F := Ideal) x0 x1 (ix3 b n m)
      = sqd twoLit (val_main_v0 (F := Ideal) x0) (val_main_v1 (F := Ideal) x1) b n m := by
  have e7 : idx_main_v7 (idx_main_v9 (ix3 b n m)) = ix2 b n :=
    funext fun a => Fin.ext (by match a with | ⟨0, _⟩ => rfl | ⟨1, _⟩ => rfl)
  have e8 : idx_main_v8 (idx_main_v10 (ix3 b n m)) = ix2 b m :=
    funext fun a => Fin.ext (by match a with | ⟨0, _⟩ => rfl | ⟨1, _⟩ => rfl)
  rw [val_main_v14_apply, val_main_v11_apply, val_main_v9_apply, val_main_v7_apply, e7, v3_at,
    val_main_v10_apply, val_main_v8_apply, e8, v5_at, val_main_v13_apply, val_main_v12_apply,
    val_main_cst_1_apply, v6_at, Ideal.subf_def, Ideal.addf_def, Ideal.mulf_def, Ideal.ofBits_def]
  rfl

/-! ## The two vectors of minima and their totals -/

/-- The minimum over the rows of the squared distances: the nearest point of the first cloud to point m of the second. -/
theorem v15_at (x0 x1 : (⟨S2x96x96x3, .f32⟩ : BufTy).Contents (Elt Ideal)) (b : Fin 2) (m : Fin 9216) :
    val_main_v15 (F := Ideal) x0 x1 (ix2 b m)
      = colInf posInf (sqd twoLit (val_main_v0 (F := Ideal) x0) (val_main_v1 (F := Ideal) x1) b) m 9216 := by
  unfold val_main_v15
  refine (reduce_rows (val_main_v14 (F := Ideal) x0 x1) (val_main_cst_2 (F := Ideal)) b m).trans ?_
  have eP : (fun n m' => val_main_v14 (F := Ideal) x0 x1 (ix3 b n m'))
      = sqd twoLit (val_main_v0 (F := Ideal) x0) (val_main_v1 (F := Ideal) x1) b :=
    funext fun n => funext fun m' => v14_at x0 x1 b n m'
  rw [eP, val_main_cst_2_apply, Ideal.ofBits_def]

/-- The minimum over the columns: the nearest point of the second cloud to point n of the first. -/
theorem v17_at (x0 x1 : (⟨S2x96x96x3, .f32⟩ : BufTy).Contents (Elt Ideal)) (b : Fin 2) (n : Fin 9216) :
    val_main_v17 (F := Ideal) x0 x1 (ix2 b n)
      = rowInf posInf (sqd twoLit (val_main_v0 (F := Ideal) x0) (val_main_v1 (F := Ideal) x1) b) n 9216 := by
  unfold val_main_v17
  refine (reduce_cols (val_main_v14 (F := Ideal) x0 x1) (val_main_cst_4 (F := Ideal)) b n).trans ?_
  have eP : (fun n' m => val_main_v14 (F := Ideal) x0 x1 (ix3 b n' m))
      = sqd twoLit (val_main_v0 (F := Ideal) x0) (val_main_v1 (F := Ideal) x1) b :=
    funext fun n' => funext fun m => v14_at x0 x1 b n' m
  rw [eP, val_main_cst_4_apply, Ideal.ofBits_def]

/-- The total of the column minima over batches and columns, from a zero start. -/
theorem v16_at (x0 x1 : (⟨S2x96x96x3, .f32⟩ : BufTy).Contents (Elt Ideal)) (i : S_.Idx) :
    val_main_v16 (F := Ideal) x0 x1 i
      = 0 + ∑ b : Fin 2, ∑ m : Fin 9216,
          colInf posInf (sqd twoLit (val_main_v0 (F := Ideal) x0) (val_main_v1 (F := Ideal) x1) b) m 9216 := by
  rw [val_main_v16_apply, val_main_cst_3_apply, Ideal.ofBits_def, Ideal.ofBits_zero_f32, sum_idx2]
  exact congrArg (0 + ·) (Finset.sum_congr rfl fun b _ => Finset.sum_congr rfl fun m _ => v15_at x0 x1 b m)

/-- The total of the row minima over batches and rows, from a zero start. -/
theorem v18_at (x0 x1 : (⟨S2x96x96x3, .f32⟩ : BufTy).Contents (Elt Ideal)) (i : S_.Idx) :
    val_main_v18 (F := Ideal) x0 x1 i
      = 0 + ∑ b : Fin 2, ∑ n : Fin 9216,
          rowInf posInf (sqd twoLit (val_main_v0 (F := Ideal) x0) (val_main_v1 (F := Ideal) x1) b) n 9216 := by
  rw [val_main_v18_apply, val_main_cst_5_apply, Ideal.ofBits_def, Ideal.ofBits_zero_f32, sum_idx2]
  exact congrArg (0 + ·) (Finset.sum_congr rfl fun b _ => Finset.sum_congr rfl fun n _ => v17_at x0 x1 b n)

/-- The sum of the two totals is the numerator of the common result, at the scalar's one index. -/
theorem v19_eq (x0 x1 : (⟨S2x96x96x3, .f32⟩ : BufTy).Contents (Elt Ideal)) :
    val_main_v19 (F := Ideal) x0 x1
      = fun _ => numerator posInf twoLit (val_main_v0 (F := Ideal) x0) (val_main_v1 (F := Ideal) x1) := by
  funext i
  rw [val_main_v19_apply, Ideal.addf_def, v16_at, v18_at]
  exact numerator_eq posInf twoLit _ _

/-- The reference's last stage is the common result, of the two arguments reshaped to batch x point x coordinate. -/
theorem ref_result (x0 x1 : (⟨S2x96x96x3, .f32⟩ : BufTy).Contents (Elt Ideal)) :
    val_main_v20 (F := Ideal) x0 x1
      = result (shapeCast S2x9216x3 x0 shapeCasts_S2x96x96x3_S2x9216x3) (shapeCast S2x9216x3 x1 shapeCasts_S2x96x96x3_S2x9216x3) := by
  unfold val_main_v20
  rw [v19_eq]
  rfl

end Cert.ReferenceIdeal.RefValue

end
-- ==== Proof.lean ====
/-
  A tiled kernel for the two-sided nearest-neighbour sum of two point clouds equals the plain reference.

  Both programs reshape the two clouds to batch x 9216 points x 3 coordinates and compute, per batch, the squared
  distances |x|^2 + |y|^2 - 2 <x, y>; the reference takes the minimum of the full 9216 x 9216 matrix along either
  axis and sums, the kernel sweeps the matrix in 1024 x 1024 tiles and keeps running minima and a running total.
  Over the extended reals a minimum over a row is the minimum of its tiles' minima and a sum may be regrouped at
  will, so the two results are one number; the law used never needs the inputs to be finite. The kernel's side is
  an induction over the 162 grid points on what its three accumulators hold; the reference's side reads its
  operations one at a time.
-/
import proofs.«125769_j48292612276314_1_alg».proof.Defs
import proofs.«125769_j48292612276314_1_alg».proof.Proof.Gen.Kernel
import proofs.«125769_j48292612276314_1_alg».proof.Proof.Gen.Kernel.Skeleton
import proofs.«125769_j48292612276314_1_alg».proof.Proof.Gen.Kernel.Launch
import proofs.«125769_j48292612276314_1_alg».proof.Proof.Gen.Kernel.Points
import proofs.«125769_j48292612276314_1_alg».proof.Proof.Gen.Kernel.Frame
import proofs.«125769_j48292612276314_1_alg».proof.Proof.Gen.KernelIdeal
import proofs.«125769_j48292612276314_1_alg».proof.Proof.Gen.KernelIdeal.Skeleton
import proofs.«125769_j48292612276314_1_alg».proof.Proof.Gen.KernelIdeal.Launch
import proofs.«125769_j48292612276314_1_alg».proof.Proof.Gen.KernelIdeal.Points
import proofs.«125769_j48292612276314_1_alg».proof.Proof.Gen.KernelIdeal.Frame
import proofs.«125769_j48292612276314_1_alg».proof.Proof.Gen.ReferenceIdeal
import proofs.«125769_j48292612276314_1_alg».proof.Proof.Gen.ReferenceIdeal.Run
import proofs.«125769_j48292612276314_1_alg».proof.Proof.Gen.ReferenceIdeal.Read
import proofs.«125769_j48292612276314_1_alg».proof.Proof.Gen.Pre_finite_inputs
import proofs.«125769_j48292612276314_1_alg».proof.Proof.KernelValue
import proofs.«125769_j48292612276314_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the same function of the two reshaped clouds. -/
theorem algebraic : Cert.algebraic_KernelIdeal_ReferenceIdeal := by
  intro m ρ m' ρ' _ hagree
  refine ⟨fun c => Cert.Chamfer.result (Cert.KernelIdeal.Inv.cloudX m c) (Cert.KernelIdeal.Inv.cloudY m c),
    Cert.KernelIdeal.RunValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v20_eq, Cert.ReferenceIdeal.RefValue.ref_result,
    (hagree c).1, (hagree c).2]
  show _ = Cert.Chamfer.result (Cert.KernelIdeal.Gen.V m c Cert.KernelIdeal.main_v0) (Cert.KernelIdeal.Gen.V m c Cert.KernelIdeal.main_v1)
  rw [Cert.KernelIdeal.Blocks.cloudX_eq, Cert.KernelIdeal.Blocks.cloudY_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
